-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S11008x512 : Shape := ⟨2, ![11008, 512]⟩
abbrev S32x11008 : Shape := ⟨2, ![32, 11008]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_

variable [Facts]

def fn {F : FTy → Type} [FloatOps F] (main_arg0 : FVec F S4096x4096 .f32) (main_arg1 : IVec S11008x512 32) (main_arg2 : IVec S32x11008 32) (main_arg3 : FVec F S32x11008 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  main_v8
-- ==== Kernel.lean ====
abbrev S4096x4096 : Shape := ⟨2, ![4096, 4096]⟩
abbrev S11008x512 : Shape := ⟨2, ![11008, 512]⟩
abbrev S32x11008 : Shape := ⟨2, ![32, 11008]⟩
abbrev S_ : Shape := ⟨0, ![]⟩
abbrev S11264x512 : Shape := ⟨2, ![11264, 512]⟩
abbrev S32x11264 : Shape := ⟨2, ![32, 11264]⟩
abbrev S4096x4x128x8 : Shape := ⟨4, ![4096, 4, 128, 8]⟩
abbrev S4096x4x8x128 : Shape := ⟨4, ![4096, 4, 8, 128]⟩
abbrev S4096x11008 : Shape := ⟨2, ![4096, 11008]⟩
abbrev S2048x1024 : Shape := ⟨2, ![2048, 1024]⟩
abbrev S1024x128 : Shape := ⟨2, ![1024, 128]⟩
abbrev S32x1024 : Shape := ⟨2, ![32, 1024]⟩
abbrev S1024x1024 : Shape := ⟨2, ![1024, 1024]⟩
abbrev S8x1024 : Shape := ⟨2, ![8, 1024]⟩
abbrev S1024x8 : Shape := ⟨2, ![1024, 8]⟩
abbrev S1024x8x1 : Shape := ⟨3, ![1024, 8, 1]⟩
abbrev S1024x8x16 : Shape := ⟨3, ![1024, 8, 16]⟩

abbrev nBuf : Space → Nat
  | .hbm => 18
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S11008x512, .i32⟩
  | .hbm, ⟨2, _⟩ => ⟨S32x11008, .i32⟩
  | .hbm, ⟨3, _⟩ => ⟨S32x11008, .f32⟩
  | .hbm, ⟨4, _⟩ => ⟨S_, .i32⟩
  | .hbm, ⟨5, _⟩ => ⟨S_, .i32⟩
  | .hbm, ⟨6, _⟩ => ⟨S11264x512, .i32⟩
  | .hbm, ⟨7, _⟩ => ⟨S_, .i32⟩
  | .hbm, ⟨8, _⟩ => ⟨S_, .i32⟩
  | .hbm, ⟨9, _⟩ => ⟨S32x11264, .i32⟩
  | .hbm, ⟨10, _⟩ => ⟨S_, .i32⟩
  | .hbm, ⟨11, _⟩ => ⟨S_, .f32⟩
  | .hbm, ⟨12, _⟩ => ⟨S32x11264, .f32⟩
  | .hbm, ⟨13, _⟩ => ⟨S4096x4096, .bf16⟩
  | .hbm, ⟨14, _⟩ => ⟨S4096x4x128x8, .bf16⟩
  | .hbm, ⟨15, _⟩ => ⟨S4096x4x8x128, .bf16⟩
  | .hbm, ⟨16, _⟩ => ⟨S4096x4096, .bf16⟩
  | .hbm, ⟨17, _⟩ => ⟨S4096x11008, .f32⟩
  | .local _ .vmem, ⟨0, _⟩ => ⟨S2048x1024, .bf16⟩
  | .local _ .vmem, ⟨1, _⟩ => ⟨S2048x1024, .bf16⟩
  | .local _ .vmem, ⟨2, _⟩ => ⟨S1024x128, .i32⟩
  | .local _ .vmem, ⟨3, _⟩ => ⟨S1024x128, .i32⟩
  | .local _ .vmem, ⟨4, _⟩ => ⟨S32x1024, .i32⟩
  | .local _ .vmem, ⟨5, _⟩ => ⟨S32x1024, .i32⟩
  | .local _ .vmem, ⟨6, _⟩ => ⟨S32x1024, .f32⟩
  | .local _ .vmem, ⟨7, _⟩ => ⟨S32x1024, .f32⟩
  | .local _ .vmem, ⟨8, _⟩ => ⟨S2048x1024, .f32⟩
  | .local _ .vmem, ⟨9, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 11, 4], ![false, false, false]⟩

def k0_mult1 (i : grid0.Coords) : BitVec 32 :=
  let arg2 : BitVec 32 := BitVec.ofNat 32 (i 2).val
  let c8_i32_10 : BitVec 32 := 8#32
  let v46 : BitVec 32 := Scalar.muli arg2 c8_i32_10
  v46
def k0_off1 (i : grid0.Coords) : Fin 2 → Nat :=
  let arg2 : BitVec 32 := BitVec.ofNat 32 (i 2).val
  let c8_i32_10 : BitVec 32 := 8#32
  let v46 : BitVec 32 := Scalar.muli arg2 c8_i32_10
  let v47 : BitVec 32 := v46
  let v48 : Index := Scalar.indexCast v47
  let c0_11 : Index := 0#32
  ![v48.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S32x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  pads_S11008x512_S11264x512_02560_000 : S11008x512.Pads (![0, 0] : Fin 2 → Nat) ![256, 0] ![0, 0] S11264x512
  h_S_ : 0 < S_.numel
  pads_S32x11008_S32x11264_000_02560 : S32x11008.Pads (![0, 0] : Fin 2 → Nat) ![0, 256] ![0, 0] S32x11264
  bitsLt_bf16_f32 : FTy.bits .bf16 < FTy.bits .f32
  shapeCasts_S4096x4096_S4096x4x128x8 : S4096x4096.ShapeCasts S4096x4x128x8
  transposes_S4096x4x128x8_S4096x4x8x128_0_1_3_2 : S4096x4x128x8.Transposes [0, 1, 3, 2] S4096x4x8x128
  shapeCasts_S4096x4x8x128_S4096x4096 : S4096x4x8x128.ShapeCasts S4096x4096
  inb_S2048x1024_S2048x1024_0_0 : ∀ a, (![0, 0] : Fin 2 → Nat) a + S2048x1024.size a ≤ S2048x1024.size a
  h_S2048x1024 : 0 < S2048x1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  concatenates_S1024x128_S1024x128_S1024x128_S1024x128_S1024x128_S1024x128_S1024x128_S1024x128_S1024x1024_d1 : Shape.Concatenates [S1024x128, S1024x128, S1024x128, S1024x128, S1024x128, S1024x128, S1024x128, S1024x128] S1024x1024 1
  h_S8x1024 : 0 < S8x1024.numel
  shapeCasts_S8x1024_S8x1024 : S8x1024.ShapeCasts S8x1024
  transposes_S8x1024_p1_0_S1024x8 : S8x1024.Transposes [1, 0] S1024x8
  shapeCasts_S1024x8_S1024x8x1 : S1024x8.ShapeCasts S1024x8x1
  shapeCasts_S1024x8x1_S1024x8x1 : S1024x8x1.ShapeCasts S1024x8x1
  broadcasts_S1024x8x1_S1024x8x16 : S1024x8x1.Broadcasts S1024x8x16
  shapeCasts_S1024x8x16_S1024x128 : S1024x8x16.ShapeCasts S1024x128
  shapeCasts_S2048x1024_S2048x1024 : S2048x1024.ShapeCasts S2048x1024
  dot_S2048x1024_S1024x1024_S2048x1024_1_1_0_0_n_n_wf : DotDims.WF S2048x1024 S1024x1024 S2048x1024 [1] [1] [0] [0] [] []
  hrank0 : 0 < grid0.rank
  k0_mult1_dvd : ∀ i : grid0.Coords, 8 ∣ (k0_mult1 i).toNat
  k0_off1_inb : ∀ i : grid0.Coords, ∀ a, (k0_off1 i) a + S8x1024.size a ≤ S32x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x4096.size a
  hwx0_0 : ∀ i : grid0.Coords, EltTy.bits .bf16 = 32 ∨ (Rect.block (s := S4096x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S11264x512.size a
  hwx0_1 : ∀ i : grid0.Coords, EltTy.bits .i32 = 32 ∨ (Rect.block (s := S11264x512) S1024x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S32x11264.size a
  hwx0_2 : ∀ i : grid0.Coords, EltTy.bits .i32 = 32 ∨ (Rect.block (s := S32x11264) S32x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1024.size a ≤ S32x11264.size a
  hwx0_3 : ∀ i : grid0.Coords, EltTy.bits .f32 = 32 ∨ (Rect.block (s := S32x11264) S32x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S2048x1024.size a < S4096x11008.size a
  hwx0_4 : ∀ i : grid0.Coords, EltTy.bits .f32 = 32 ∨ (Rect.unit (s := S4096x11008) (fun a => cc0_transform_4 i a * S2048x1024.size a) (fun a => (Pipeline.Clip.of (cc0_transform_4 i a) (S2048x1024.size a) (S4096x11008.size a)).extent (S2048x1024.size a)) fun a => Pipeline.Clip.inb (Pipeline.Clip.ok_of (hstart0_4 i a))).WholeWords (EltTy.packing .f32)
  hwxs0_4 : ∀ i : grid0.Coords, EltTy.bits .f32 = 32 ∨ (Rect.unit (s := S2048x1024) (fun _ => 0) (fun a => (Pipeline.Clip.of (cc0_transform_4 i a) (S2048x1024.size a) (S4096x11008.size a)).extent (S2048x1024.size a)) fun a => (Nat.zero_add _).trans_le (Pipeline.Clip.extent_le (Pipeline.Clip.ok_of (hstart0_4 i a)))).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v6) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpecClip (Memref.whole main_v7) S2048x1024.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S11008x512 : Shape := ⟨2, ![11008, 512]⟩
abbrev S32x11008 : Shape := ⟨2, ![32, 11008]⟩
abbrev S8 : Shape := ⟨1, ![8]⟩
abbrev S_ : Shape := ⟨0, ![]⟩
abbrev S11008x512x1 : Shape := ⟨3, ![11008, 512, 1]⟩
abbrev S1x1x8 : Shape := ⟨3, ![1, 1, 8]⟩
abbrev S11008x512x8 : Shape := ⟨3, ![11008, 512, 8]⟩
abbrev S11008x4096 : Shape := ⟨2, ![11008, 4096]⟩
abbrev S11008x32x128 : Shape := ⟨3, ![11008, 32, 128]⟩
abbrev S11008x32 : Shape := ⟨2, ![11008, 32]⟩
abbrev S11008x32x1 : Shape := ⟨3, ![11008, 32, 1]⟩
abbrev S4096x11008 : Shape := ⟨2, ![4096, 11008]⟩

abbrev nBuf : Space → Nat
  | .hbm => 33
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S11008x512, .i32⟩
  | .hbm, ⟨2, _⟩ => ⟨S32x11008, .i32⟩
  | .hbm, ⟨3, _⟩ => ⟨S32x11008, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S11008x512x1, .i32⟩
  | .hbm, ⟨12, _⟩ => ⟨S1x1x8, .i32⟩
  | .hbm, ⟨13, _⟩ => ⟨S11008x512x8, .i32⟩
  | .hbm, ⟨14, _⟩ => ⟨S11008x512x8, .i32⟩
  | .hbm, ⟨15, _⟩ => ⟨S11008x512x8, .i32⟩
  | .hbm, ⟨16, _⟩ => ⟨S_, .i32⟩
  | .hbm, ⟨17, _⟩ => ⟨S11008x512x8, .i32⟩
  | .hbm, ⟨18, _⟩ => ⟨S11008x512x8, .i32⟩
  | .hbm, ⟨19, _⟩ => ⟨S11008x4096, .i32⟩
  | .hbm, ⟨20, _⟩ => ⟨S11008x32x128, .i32⟩
  | .hbm, ⟨21, _⟩ => ⟨S11008x32, .i32⟩
  | .hbm, ⟨22, _⟩ => ⟨S11008x32x1, .i32⟩
  | .hbm, ⟨23, _⟩ => ⟨S11008x32x1, .f32⟩
  | .hbm, ⟨24, _⟩ => ⟨S11008x32, .f32⟩
  | .hbm, ⟨25, _⟩ => ⟨S11008x32x1, .f32⟩
  | .hbm, ⟨26, _⟩ => ⟨S11008x32x128, .f32⟩
  | .hbm, ⟨27, _⟩ => ⟨S11008x32x128, .f32⟩
  | .hbm, ⟨28, _⟩ => ⟨S11008x32x128, .f32⟩
  | .hbm, ⟨29, _⟩ => ⟨S11008x32x128, .f32⟩
  | .hbm, ⟨30, _⟩ => ⟨S11008x32x128, .f32⟩
  | .hbm, ⟨31, _⟩ => ⟨S11008x4096, .f32⟩
  | .hbm, ⟨32, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S11008x512_S11008x512x1_0_1 : S11008x512.BroadcastsInDim S11008x512x1 (![0, 1] : Fin 2 → Fin S11008x512x1.rank)
  bcast_S8_S1x1x8_2 : S8.BroadcastsInDim S1x1x8 (![2] : Fin 1 → Fin S1x1x8.rank)
  bcast_S11008x512x1_S11008x512x8_0_1_2 : S11008x512x1.BroadcastsInDim S11008x512x8 (![0, 1, 2] : Fin 3 → Fin S11008x512x8.rank)
  bcast_S1x1x8_S11008x512x8_0_1_2 : S1x1x8.BroadcastsInDim S11008x512x8 (![0, 1, 2] : Fin 3 → Fin S11008x512x8.rank)
  bcast_S_S11008x512x8 : S_.BroadcastsInDim S11008x512x8 (![] : Fin 0 → Fin S11008x512x8.rank)
  shapeCasts_S11008x512x8_S11008x4096 : S11008x512x8.ShapeCasts S11008x4096
  shapeCasts_S11008x4096_S11008x32x128 : S11008x4096.ShapeCasts S11008x32x128
  transposes_S32x11008_S11008x32_1_0 : S32x11008.Transposes [1, 0] S11008x32
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  dot_S4096x4096_S11008x4096_S4096x11008_1_1_0_0_n_n_wf : DotDims.WF S4096x4096 S11008x4096 S4096x11008 [1] [1] [0] [0] [] []

variable [Facts₀]

def dot_S4096x4096_S11008x4096_S4096x11008_1_1_0_0_n_n : DotDims S4096x4096 S11008x4096 S4096x11008 where
  lhsContracting := [1]
  rhsContracting := [1]
  lhsNonContracting := [0]
  rhsNonContracting := [0]
  lhsBatch := []
  rhsBatch := []
  wf := dot_S4096x4096_S11008x4096_S4096x11008_1_1_0_0_n_n_wf

class Facts : Prop extends Facts₀ where

variable [Facts]
-- ==== Proof.BodyBits.lean ====
/-
  The body of the fused dequantize-and-multiply kernel, at any float instance.

  One grid point (i, j, k) multiplies the (2048 x 1024) tile of the permuted activations by the
  transposed (1024 x 1024) tile of dequantized weights and adds the product into the output window's
  staging buffer, which the first K-tile (k = 0) zeroes beforehand.  So, as a function of the four
  input blocks and of what the output buffer held, the body leaves `step … Y = Y + x · wᵀ` there,
  with `Y` the zero block at k = 0 and what the point before left otherwise: the running sum over
  the K-tiles, `accAt`.

  The output's last column block overhangs the array (11008 = 10 · 1024 + 768).  Nothing names what
  its staging buffer holds past column 768 between two points; but the update is entry by entry in
  the old buffer, so on the columns inside the array the buffer still holds the running sum, and that
  is all the write-back after the last K-tile moves.
-/
import proofs.«405407_j53807350284787_4_alg».proof.Proof.Gen.Kernel.Frame
import proofs.«405407_j53807350284787_4_alg».proof.Proof.Gen.Kernel.Skeleton
import Idealize.ShloMosaic.Lib.Pipeline.Value
import Idealize.ShloMosaic.Lib.Pipeline.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body as a function of what it reads -/

/-- The body's test "this is the first K-tile", as it computes it from the grid coordinates. -/
abbrev isFirst (i : grid0.Coords) : Prop :=
  (Scalar.cmpi .ne (Scalar.extui (Scalar.cmpi .eq (BitVec.ofNat 32 (i 2).val) 0#32)) 0#32) = 1#1

/-- It holds exactly at the points whose K coordinate is zero: every fourth point, from the first. -/
theorem isFirst_iff : ∀ t : Fin cfg0.N, isFirst (grid0.coords t) ↔ t.val % 4 = 0 :=
  (by decide +kernel : ∀ t : Fin grid0.N, isFirst (grid0.coords t) ↔ t.val % 4 = 0)

theorem zero_offsets : (![0, 0] : Fin 2 → Nat) = fun _ => 0 := funext fun a => by fin_cases a <;> rfl

/-- What the body leaves in the output window's buffer, from the four input blocks `x0` (activations),
    `x1` (packed weights), `x2` (zero points), `x3` (scales) and the buffer's contents `Y` when the
    accumulation reads it: `Y` plus the tile's product.  Of the 32 groups of `x2` and `x3` the K-tile reads
    its own eight rows. -/
def step (i : grid0.Coords) (x0 : Vec F S2048x1024 .bf16) (x1 : Vec F S1024x128 .i32) (x2 : Vec F S32x1024 .i32)
    (x3 : Vec F S32x1024 .f32) (Y : Vec F S2048x1024 .f32) : Vec F S2048x1024 .f32 :=
  k0_pay1 (k0_pay3 x1) (k0_pay4 x1) (k0_pay5 x1) (k0_pay6 x1) (k0_pay7 x1) (k0_pay8 x1) (k0_pay9 x1) (k0_pay10 x1) k0_pay11
    (View.ld x2 (Rect.unit (s := S32x1024) (k0_off1 i) S8x1024.size (k0_off1_inb i)))
    (View.ld x3 (Rect.unit (s := S32x1024) (k0_off1 i) S8x1024.size (k0_off1_inb i))) x0 Y

/-- The update is entry by entry in the old buffer: two buffers that agree at an entry leave the same there. -/
theorem step_congr (i : grid0.Coords) (x0 : Vec F S2048x1024 .bf16) (x1 : Vec F S1024x128 .i32) (x2 : Vec F S32x1024 .i32)
    (x3 : Vec F S32x1024 .f32) (Y Y' : Vec F S2048x1024 .f32) (y : S2048x1024.Idx) (h : Y y = Y' y) :
    step i x0 x1 x2 x3 Y y = step i x0 x1 x2 x3 Y' y := by
  unfold step k0_pay1
  show FloatOps.addf (shapeCast S2048x1024 Y shapeCasts_S2048x1024_S2048x1024 y) _
    = FloatOps.addf (shapeCast S2048x1024 Y' shapeCasts_S2048x1024_S2048x1024 y) _
  rw [shapeCast_self Y, shapeCast_self Y', h]

/-! ## The body's run -/

set_option maxHeartbeats 1000000 in
/-- At a later K-tile: the inputs' buffers at their blocks and the output's at `Y`; the body leaves the
    inputs as they were and the output's buffer at `step … Y`. -/
theorem run_later (c : Dev nD) (i : grid0.Coords) (arg3 : Memref sig .tc .vmem S2048x1024 .bf16) (harg3 : arg3.IsWhole) (arg4 : Memref sig .tc .vmem S1024x128 .i32) (harg4 : arg4.IsWhole) (arg5 : Memref sig .tc .vmem S32x1024 .i32) (harg5 : arg5.IsWhole) (arg6 : Memref sig .tc .vmem S32x1024 .f32) (harg6 : arg6.IsWhole) (arg7 : Memref sig .tc .vmem S2048x1024 .f32) (harg7 : arg7.IsWhole) (hc0 : ¬isFirst i)
    (x0 : Vec F S2048x1024 .bf16) (x1 : Vec F S1024x128 .i32) (x2 : Vec F S32x1024 .i32) (x3 : Vec F S32x1024 .f32) (Y : Vec F S2048x1024 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare Y
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (step i x0 x1 x2 x3 Y)) -∗ K ⟨⟩))
          ⊢ wp frame (wpE (defs₀ (F := F)) Variants.none c none) E (cc0__awq_matmul_kernel i arg3 harg3 arg4 harg4 arg5 harg5 arg6 harg6 arg7 harg7) K := by
    intro E K
    simp only [cc0__awq_matmul_kernel_eq_skeleton]; unfold cc0__awq_matmul_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; isplitr; swap; · iexact H4
    ipureintro
    rw [View.read_writes_eq_canon _ _ _ (fun y => ⟨_, List.mem_singleton_self _, View.mem_set_unit_zero zero_offsets inb_S2048x1024_S2048x1024_0_0 y⟩),
      View.canon_unit_zero zero_offsets]
    sl_unfold_words
    simp only [View.readAt_eq_ld, harg3.read_unread, harg4.read_unread, harg5.read_unread, harg6.read_unread, harg7.read_unread,
      View.ld_unit_zero (S := S2048x1024) zero_offsets, View.ld_unit_zero (S := S1024x128) zero_offsets]
    rfl

set_option maxHeartbeats 1000000 in
/-- At the first K-tile: the inputs' buffers at their blocks and the output's at anything; the body zeroes
    the output's buffer, reads the zeros back and leaves `step … 0` there, the inputs as they were. -/
theorem run_first (c : Dev nD) (i : grid0.Coords) (arg3 : Memref sig .tc .vmem S2048x1024 .bf16) (harg3 : arg3.IsWhole) (arg4 : Memref sig .tc .vmem S1024x128 .i32) (harg4 : arg4.IsWhole) (arg5 : Memref sig .tc .vmem S32x1024 .i32) (harg5 : arg5.IsWhole) (arg6 : Memref sig .tc .vmem S32x1024 .f32) (harg6 : arg6.IsWhole) (arg7 : Memref sig .tc .vmem S2048x1024 .f32) (harg7 : arg7.IsWhole) (hc0 : isFirst i)
    (x0 : Vec F S2048x1024 .bf16) (x1 : Vec F S1024x128 .i32) (x2 : Vec F S32x1024 .i32) (x3 : Vec F S32x1024 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (step i x0 x1 x2 x3 k0_pay2)) -∗ K ⟨⟩))
          ⊢ wp frame (wpE (defs₀ (F := F)) Variants.none c none) E (cc0__awq_matmul_kernel i arg3 harg3 arg4 harg4 arg5 harg5 arg6 harg6 arg7 harg7) K := by
    intro E K
    simp only [cc0__awq_matmul_kernel_eq_skeleton]; unfold cc0__awq_matmul_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; isplitr; swap; · iexact H4
    ipureintro
    rw [View.read_writes_eq_canon _ _ _ (fun y => ⟨_, List.mem_cons_self, View.mem_set_unit_zero zero_offsets inb_S2048x1024_S2048x1024_0_0 y⟩),
      View.canon_cons_unit_zero zero_offsets]
    sl_unfold_words
    simp only [View.readAt_eq_ld, harg3.read_unread, harg4.read_unread, harg5.read_unread, harg6.read_unread, View.readCov_unit_zero (S := S2048x1024) _ zero_offsets,
      View.ld_unit_zero (S := S2048x1024) zero_offsets, View.ld_unit_zero (S := S1024x128) zero_offsets]
    rfl

/-! ## The running sum over the K-tiles -/

variable (m : (ℓ : Loc nD τ sig) → Buf (Elt F) ℓ) (ρ : Dev nD → PrngReg)

/-- Each window's current staging memref at point `t`, and that it is a whole buffer. -/
abbrev ms0 (t : Fin cfg0.N) : Memref sig .tc .vmem S2048x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x1024 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1024 .f32 := win0_4.stage (cfg0.slots t 4)
abbrev hs4 (t : Fin cfg0.N) : (ms4 t).IsWhole := hstage0_4 ((cfg0.slots t 4).cast nbuf0_4)

/-- The body's update at point `t`, on the point's four input blocks. -/
def stepAt (c : Dev nD) (t : Fin cfg0.N) (Y : Vec F S2048x1024 .f32) : Vec F S2048x1024 .f32 :=
  step (grid0.coords t) (iblk m c 0 t) (iblk m c 1 t) (iblk m c 2 t) (iblk m c 3 t) Y

/-- What the output window's staging buffer holds after the body at point `n` when everything in it is named:
    the update over the zero block at a first K-tile, over what the point before left otherwise. -/
def accAt (c : Dev nD) : (n : ℕ) → n < cfg0.N → Vec F S2048x1024 .f32
  | 0, hn => stepAt m c ⟨0, hn⟩ k0_pay2
  | n + 1, hn => stepAt m c ⟨n + 1, hn⟩ (if (n + 1) % 4 = 0 then k0_pay2 else accAt c n (Nat.lt_of_succ_lt hn))

theorem accAt_first (c : Dev nD) (t : Fin cfg0.N) (h0 : t.val % 4 = 0) :
    accAt m c t.val t.isLt = stepAt m c t k0_pay2 := by
  obtain ⟨n, hn⟩ := t
  cases n with
  | zero => rfl
  | succ n => exact congrArg (stepAt m c ⟨n + 1, hn⟩) (if_pos h0)

theorem accAt_later (c : Dev nD) (t : Fin cfg0.N) (h0 : ¬t.val % 4 = 0) :
    accAt m c t.val t.isLt = stepAt m c t (accAt m c (t.val - 1) (Nat.lt_of_le_of_lt (Nat.sub_le _ _) t.isLt)) := by
  obtain ⟨n, hn⟩ := t
  cases n with
  | zero => exact absurd (Nat.zero_mod _) h0
  | succ n => exact congrArg (stepAt m c ⟨n + 1, hn⟩) (if_neg h0)

/-! ## The pipeline's proof data -/

/-- The arrays as the region finds them; after the body each input's buffer at its block and the output's at the
    running sum; the region's own invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = accAt m c t.val t.isLt := by dsimp only [dats]

/-- Each input's current buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- How many rows and columns of the output's block lie inside the array: all of them, but for the last column
    block's 768 of 1024 columns. -/
theorem xsize4 : ∀ (t : Fin cfg0.N) (a : Fin 2),
    win0_4.xsize (grid0.coords t) a = if a = 1 ∧ (t.val / 4) % 11 = 10 then 768 else S2048x1024.size a :=
  (by decide +kernel : ∀ (t : Fin grid0.N) (a : Fin 2),
    win0_4.xsize (grid0.coords t) a = if a = 1 ∧ (t.val / 4) % 11 = 10 then 768 else S2048x1024.size a)

/-- At a first K-tile the output's buffer is fresh: the first point, or the point before wrote it back. -/
theorem before4_first (c : Dev nD) (t : Fin cfg0.N) (h0 : t.val % 4 = 0) (d) : (dats m 0 c).before 4 t d = d :=
  Dat.before_out_reset _ 4 rfl t (by
    by_cases ht : t.val = 0
    · exact .inl ht
    · exact .inr ⟨ht, (flush0_4 _).mpr (by show (t.val - 1) % 4 = 3; omega)⟩) d

/-- At a later K-tile it holds what the point before left on the part inside the array, and anything past it. -/
theorem before4_later (c : Dev nD) (t : Fin cfg0.N) (h0 : ¬t.val % 4 = 0) (d) :
    (dats m 0 c).before 4 t d = (dats m 0 c).kept 4 ⟨t.val - 1, Nat.lt_of_le_of_lt (Nat.sub_le _ _) t.isLt⟩ d :=
  Dat.before_out_acc _ 4 rfl t (by omega)
    (Bool.eq_false_iff.mpr fun h => by have := (flush0_4 _).mp h; dsimp only at this; omega) (fun _ => rfl) d

/-- So on the part inside the array a later K-tile finds the running sum: the K-tiles of one output block share
    that part, the block's index not having moved. -/
theorem found_later (c : Dev nD) (t : Fin cfg0.N) (h0 : ¬t.val % 4 = 0) (d)
    (j : ((cfg0.win 4).xblock (grid0.coords t)).Idx) :
    (dats m 0 c).before 4 t d ((cfg0.win 4).xinj (grid0.coords t) j)
      = accAt m c (t.val - 1) (Nat.lt_of_le_of_lt (Nat.sub_le _ _) t.isLt) ((cfg0.win 4).xinj (grid0.coords t) j) := by
  rw [before4_later m c t h0 d]
  have hm : (cfg0.win 4).moved (grid0.coords ⟨t.val - 1, Nat.lt_of_le_of_lt (Nat.sub_le _ _) t.isLt⟩)
      ((cfg0.win 4).xinj (grid0.coords t) j) = true :=
    ((cfg0.win 4).moved_iff _ _).mpr fun a => by
      have hj := (j a).isLt
      have e1 := xsize4 ⟨t.val - 1, Nat.lt_of_le_of_lt (Nat.sub_le _ _) t.isLt⟩ a
      have e2 := xsize4 t a
      have hd : (t.val - 1) / 4 = t.val / 4 := by omega
      show ((j a).val : Nat) < win0_4.xsize (grid0.coords ⟨t.val - 1, _⟩) a
      rw [e1]; dsimp only; rw [hd, ← e2]; exact hj
  unfold Dat.kept Window.fill
  rw [dif_pos hm]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns: the output's buffer stated on the part inside the array only. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ (∃ d, owns (c : Thread nD τ) (ms4 t) fullShare
        ((cfg0.win 4).fill (grid0.coords t) d ((cfg0.win 4).cut (grid0.coords t) ((dats m 0 c).after 4 t)))))

set_option maxHeartbeats 800000 in
/-- The body at any point.  At a first K-tile the buffer it leaves is the running sum itself.  At a later one the
    buffer it found agrees with the running sum on the part inside the array, and the update is entry by entry, so
    what it leaves agrees with the new running sum there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  by_cases h0 : t.val % 4 = 0
  · rw [accAt_first m c t h0]
    unfold stepAt
    iintro ⟨HΦ, Ho, ⟨%d0, H0⟩, ⟨%d1, H1⟩, ⟨%d2, H2⟩, ⟨%d3, H3⟩, ⟨%d4, H4⟩⟩
    iapply ((run_first c (grid0.coords t) _ _ _ _ _ _ _ _ _ _ ((isFirst_iff t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexists (step (grid0.coords t) (iblk m c 0 t) (iblk m c 1 t) (iblk m c 2 t) (iblk m c 3 t) k0_pay2)
    rw [Window.fill_cut]
    iexact H4
  · rw [accAt_later m c t h0]
    unfold stepAt
    iintro ⟨HΦ, Ho, ⟨%d0, H0⟩, ⟨%d1, H1⟩, ⟨%d2, H2⟩, ⟨%d3, H3⟩, ⟨%d4, H4⟩⟩
    iapply ((run_later c (grid0.coords t) _ _ _ _ _ _ _ _ _ _ (fun h => h0 ((isFirst_iff t).mp h)) (iblk m c 0 t) (iblk m c 1 t) (iblk m c 2 t) (iblk m c 3 t) ((dats m 0 c).before 4 t d4)) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexists (step (grid0.coords t) (iblk m c 0 t) (iblk m c 1 t) (iblk m c 2 t) (iblk m c 3 t) ((dats m 0 c).before 4 t d4))
    rw [Window.fill_congr_cut (cfg0.win 4) (grid0.coords t) (funext fun j =>
      step_congr (grid0.coords t) (iblk m c 0 t) (iblk m c 1 t) (iblk m c 2 t) (iblk m c 3 t) _ _ _ (found_later m c t h0 d4 j))]
    iexact H4

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; every array of the pipeline ends at what the proof data
    computes (an input unchanged, the output its entry contents overwritten block by block by the running sums'
    parts inside the array) and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The frame: the run's post read at the four argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.BodyIdeal.lean ====
/-
  The body of the fused dequantize-and-multiply kernel, at any float instance.

  One grid point (i, j, k) multiplies the (2048 x 1024) tile of the permuted activations by the
  transposed (1024 x 1024) tile of dequantized weights and adds the product into the output window's
  staging buffer, which the first K-tile (k = 0) zeroes beforehand.  So, as a function of the four
  input blocks and of what the output buffer held, the body leaves `step … Y = Y + x · wᵀ` there,
  with `Y` the zero block at k = 0 and what the point before left otherwise: the running sum over
  the K-tiles, `accAt`.

  The output's last column block overhangs the array (11008 = 10 · 1024 + 768).  Nothing names what
  its staging buffer holds past column 768 between two points; but the update is entry by entry in
  the old buffer, so on the columns inside the array the buffer still holds the running sum, and that
  is all the write-back after the last K-tile moves.
-/
import proofs.«405407_j53807350284787_4_alg».proof.Proof.Gen.KernelIdeal.Frame
import proofs.«405407_j53807350284787_4_alg».proof.Proof.Gen.KernelIdeal.Skeleton
import Idealize.ShloMosaic.Lib.Pipeline.Value
import Idealize.ShloMosaic.Lib.Pipeline.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body as a function of what it reads -/

/-- The body's test "this is the first K-tile", as it computes it from the grid coordinates. -/
abbrev isFirst (i : grid0.Coords) : Prop :=
  (Scalar.cmpi .ne (Scalar.extui (Scalar.cmpi .eq (BitVec.ofNat 32 (i 2).val) 0#32)) 0#32) = 1#1

/-- It holds exactly at the points whose K coordinate is zero: every fourth point, from the first. -/
theorem isFirst_iff : ∀ t : Fin cfg0.N, isFirst (grid0.coords t) ↔ t.val % 4 = 0 :=
  (by decide +kernel : ∀ t : Fin grid0.N, isFirst (grid0.coords t) ↔ t.val % 4 = 0)

theorem zero_offsets : (![0, 0] : Fin 2 → Nat) = fun _ => 0 := funext fun a => by fin_cases a <;> rfl

/-- What the body leaves in the output window's buffer, from the four input blocks `x0` (activations),
    `x1` (packed weights), `x2` (zero points), `x3` (scales) and the buffer's contents `Y` when the
    accumulation reads it: `Y` plus the tile's product.  Of the 32 groups of `x2` and `x3` the K-tile reads
    its own eight rows. -/
def step (i : grid0.Coords) (x0 : Vec F S2048x1024 .bf16) (x1 : Vec F S1024x128 .i32) (x2 : Vec F S32x1024 .i32)
    (x3 : Vec F S32x1024 .f32) (Y : Vec F S2048x1024 .f32) : Vec F S2048x1024 .f32 :=
  k0_pay1 (k0_pay3 x1) (k0_pay4 x1) (k0_pay5 x1) (k0_pay6 x1) (k0_pay7 x1) (k0_pay8 x1) (k0_pay9 x1) (k0_pay10 x1) k0_pay11
    (View.ld x2 (Rect.unit (s := S32x1024) (k0_off1 i) S8x1024.size (k0_off1_inb i)))
    (View.ld x3 (Rect.unit (s := S32x1024) (k0_off1 i) S8x1024.size (k0_off1_inb i))) x0 Y

/-- The update is entry by entry in the old buffer: two buffers that agree at an entry leave the same there. -/
theorem step_congr (i : grid0.Coords) (x0 : Vec F S2048x1024 .bf16) (x1 : Vec F S1024x128 .i32) (x2 : Vec F S32x1024 .i32)
    (x3 : Vec F S32x1024 .f32) (Y Y' : Vec F S2048x1024 .f32) (y : S2048x1024.Idx) (h : Y y = Y' y) :
    step i x0 x1 x2 x3 Y y = step i x0 x1 x2 x3 Y' y := by
  unfold step k0_pay1
  show FloatOps.addf (shapeCast S2048x1024 Y shapeCasts_S2048x1024_S2048x1024 y) _
    = FloatOps.addf (shapeCast S2048x1024 Y' shapeCasts_S2048x1024_S2048x1024 y) _
  rw [shapeCast_self Y, shapeCast_self Y', h]

/-! ## The body's run -/

set_option maxHeartbeats 1000000 in
/-- At a later K-tile: the inputs' buffers at their blocks and the output's at `Y`; the body leaves the
    inputs as they were and the output's buffer at `step … Y`. -/
theorem run_later (c : Dev nD) (i : grid0.Coords) (arg3 : Memref sig .tc .vmem S2048x1024 .bf16) (harg3 : arg3.IsWhole) (arg4 : Memref sig .tc .vmem S1024x128 .i32) (harg4 : arg4.IsWhole) (arg5 : Memref sig .tc .vmem S32x1024 .i32) (harg5 : arg5.IsWhole) (arg6 : Memref sig .tc .vmem S32x1024 .f32) (harg6 : arg6.IsWhole) (arg7 : Memref sig .tc .vmem S2048x1024 .f32) (harg7 : arg7.IsWhole) (hc0 : ¬isFirst i)
    (x0 : Vec F S2048x1024 .bf16) (x1 : Vec F S1024x128 .i32) (x2 : Vec F S32x1024 .i32) (x3 : Vec F S32x1024 .f32) (Y : Vec F S2048x1024 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare Y
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (step i x0 x1 x2 x3 Y)) -∗ K ⟨⟩))
          ⊢ wp frame (wpE (defs₀ (F := F)) Variants.none c none) E (cc0__awq_matmul_kernel i arg3 harg3 arg4 harg4 arg5 harg5 arg6 harg6 arg7 harg7) K := by
    intro E K
    simp only [cc0__awq_matmul_kernel_eq_skeleton]; unfold cc0__awq_matmul_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; isplitr; swap; · iexact H4
    ipureintro
    rw [View.read_writes_eq_canon _ _ _ (fun y => ⟨_, List.mem_singleton_self _, View.mem_set_unit_zero zero_offsets inb_S2048x1024_S2048x1024_0_0 y⟩),
      View.canon_unit_zero zero_offsets]
    sl_unfold_words
    simp only [View.readAt_eq_ld, harg3.read_unread, harg4.read_unread, harg5.read_unread, harg6.read_unread, harg7.read_unread,
      View.ld_unit_zero (S := S2048x1024) zero_offsets, View.ld_unit_zero (S := S1024x128) zero_offsets]
    rfl

set_option maxHeartbeats 1000000 in
/-- At the first K-tile: the inputs' buffers at their blocks and the output's at anything; the body zeroes
    the output's buffer, reads the zeros back and leaves `step … 0` there, the inputs as they were. -/
theorem run_first (c : Dev nD) (i : grid0.Coords) (arg3 : Memref sig .tc .vmem S2048x1024 .bf16) (harg3 : arg3.IsWhole) (arg4 : Memref sig .tc .vmem S1024x128 .i32) (harg4 : arg4.IsWhole) (arg5 : Memref sig .tc .vmem S32x1024 .i32) (harg5 : arg5.IsWhole) (arg6 : Memref sig .tc .vmem S32x1024 .f32) (harg6 : arg6.IsWhole) (arg7 : Memref sig .tc .vmem S2048x1024 .f32) (harg7 : arg7.IsWhole) (hc0 : isFirst i)
    (x0 : Vec F S2048x1024 .bf16) (x1 : Vec F S1024x128 .i32) (x2 : Vec F S32x1024 .i32) (x3 : Vec F S32x1024 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (step i x0 x1 x2 x3 k0_pay2)) -∗ K ⟨⟩))
          ⊢ wp frame (wpE (defs₀ (F := F)) Variants.none c none) E (cc0__awq_matmul_kernel i arg3 harg3 arg4 harg4 arg5 harg5 arg6 harg6 arg7 harg7) K := by
    intro E K
    simp only [cc0__awq_matmul_kernel_eq_skeleton]; unfold cc0__awq_matmul_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; isplitr; swap; · iexact H4
    ipureintro
    rw [View.read_writes_eq_canon _ _ _ (fun y => ⟨_, List.mem_cons_self, View.mem_set_unit_zero zero_offsets inb_S2048x1024_S2048x1024_0_0 y⟩),
      View.canon_cons_unit_zero zero_offsets]
    sl_unfold_words
    simp only [View.readAt_eq_ld, harg3.read_unread, harg4.read_unread, harg5.read_unread, harg6.read_unread, View.readCov_unit_zero (S := S2048x1024) _ zero_offsets,
      View.ld_unit_zero (S := S2048x1024) zero_offsets, View.ld_unit_zero (S := S1024x128) zero_offsets]
    rfl

/-! ## The running sum over the K-tiles -/

variable (m : (ℓ : Loc nD τ sig) → Buf (Elt F) ℓ) (ρ : Dev nD → PrngReg)

/-- Each window's current staging memref at point `t`, and that it is a whole buffer. -/
abbrev ms0 (t : Fin cfg0.N) : Memref sig .tc .vmem S2048x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x1024 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1024 .f32 := win0_4.stage (cfg0.slots t 4)
abbrev hs4 (t : Fin cfg0.N) : (ms4 t).IsWhole := hstage0_4 ((cfg0.slots t 4).cast nbuf0_4)

/-- The body's update at point `t`, on the point's four input blocks. -/
def stepAt (c : Dev nD) (t : Fin cfg0.N) (Y : Vec F S2048x1024 .f32) : Vec F S2048x1024 .f32 :=
  step (grid0.coords t) (iblk m c 0 t) (iblk m c 1 t) (iblk m c 2 t) (iblk m c 3 t) Y

/-- What the output window's staging buffer holds after the body at point `n` when everything in it is named:
    the update over the zero block at a first K-tile, over what the point before left otherwise. -/
def accAt (c : Dev nD) : (n : ℕ) → n < cfg0.N → Vec F S2048x1024 .f32
  | 0, hn => stepAt m c ⟨0, hn⟩ k0_pay2
  | n + 1, hn => stepAt m c ⟨n + 1, hn⟩ (if (n + 1) % 4 = 0 then k0_pay2 else accAt c n (Nat.lt_of_succ_lt hn))

theorem accAt_first (c : Dev nD) (t : Fin cfg0.N) (h0 : t.val % 4 = 0) :
    accAt m c t.val t.isLt = stepAt m c t k0_pay2 := by
  obtain ⟨n, hn⟩ := t
  cases n with
  | zero => rfl
  | succ n => exact congrArg (stepAt m c ⟨n + 1, hn⟩) (if_pos h0)

theorem accAt_later (c : Dev nD) (t : Fin cfg0.N) (h0 : ¬t.val % 4 = 0) :
    accAt m c t.val t.isLt = stepAt m c t (accAt m c (t.val - 1) (Nat.lt_of_le_of_lt (Nat.sub_le _ _) t.isLt)) := by
  obtain ⟨n, hn⟩ := t
  cases n with
  | zero => exact absurd (Nat.zero_mod _) h0
  | succ n => exact congrArg (stepAt m c ⟨n + 1, hn⟩) (if_neg h0)

/-! ## The pipeline's proof data -/

/-- The arrays as the region finds them; after the body each input's buffer at its block and the output's at the
    running sum; the region's own invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = accAt m c t.val t.isLt := by dsimp only [dats]

/-- Each input's current buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- How many rows and columns of the output's block lie inside the array: all of them, but for the last column
    block's 768 of 1024 columns. -/
theorem xsize4 : ∀ (t : Fin cfg0.N) (a : Fin 2),
    win0_4.xsize (grid0.coords t) a = if a = 1 ∧ (t.val / 4) % 11 = 10 then 768 else S2048x1024.size a :=
  (by decide +kernel : ∀ (t : Fin grid0.N) (a : Fin 2),
    win0_4.xsize (grid0.coords t) a = if a = 1 ∧ (t.val / 4) % 11 = 10 then 768 else S2048x1024.size a)

/-- At a first K-tile the output's buffer is fresh: the first point, or the point before wrote it back. -/
theorem before4_first (c : Dev nD) (t : Fin cfg0.N) (h0 : t.val % 4 = 0) (d) : (dats m 0 c).before 4 t d = d :=
  Dat.before_out_reset _ 4 rfl t (by
    by_cases ht : t.val = 0
    · exact .inl ht
    · exact .inr ⟨ht, (flush0_4 _).mpr (by show (t.val - 1) % 4 = 3; omega)⟩) d

/-- At a later K-tile it holds what the point before left on the part inside the array, and anything past it. -/
theorem before4_later (c : Dev nD) (t : Fin cfg0.N) (h0 : ¬t.val % 4 = 0) (d) :
    (dats m 0 c).before 4 t d = (dats m 0 c).kept 4 ⟨t.val - 1, Nat.lt_of_le_of_lt (Nat.sub_le _ _) t.isLt⟩ d :=
  Dat.before_out_acc _ 4 rfl t (by omega)
    (Bool.eq_false_iff.mpr fun h => by have := (flush0_4 _).mp h; dsimp only at this; omega) (fun _ => rfl) d

/-- So on the part inside the array a later K-tile finds the running sum: the K-tiles of one output block share
    that part, the block's index not having moved. -/
theorem found_later (c : Dev nD) (t : Fin cfg0.N) (h0 : ¬t.val % 4 = 0) (d)
    (j : ((cfg0.win 4).xblock (grid0.coords t)).Idx) :
    (dats m 0 c).before 4 t d ((cfg0.win 4).xinj (grid0.coords t) j)
      = accAt m c (t.val - 1) (Nat.lt_of_le_of_lt (Nat.sub_le _ _) t.isLt) ((cfg0.win 4).xinj (grid0.coords t) j) := by
  rw [before4_later m c t h0 d]
  have hm : (cfg0.win 4).moved (grid0.coords ⟨t.val - 1, Nat.lt_of_le_of_lt (Nat.sub_le _ _) t.isLt⟩)
      ((cfg0.win 4).xinj (grid0.coords t) j) = true :=
    ((cfg0.win 4).moved_iff _ _).mpr fun a => by
      have hj := (j a).isLt
      have e1 := xsize4 ⟨t.val - 1, Nat.lt_of_le_of_lt (Nat.sub_le _ _) t.isLt⟩ a
      have e2 := xsize4 t a
      have hd : (t.val - 1) / 4 = t.val / 4 := by omega
      show ((j a).val : Nat) < win0_4.xsize (grid0.coords ⟨t.val - 1, _⟩) a
      rw [e1]; dsimp only; rw [hd, ← e2]; exact hj
  unfold Dat.kept Window.fill
  rw [dif_pos hm]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns: the output's buffer stated on the part inside the array only. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ (∃ d, owns (c : Thread nD τ) (ms4 t) fullShare
        ((cfg0.win 4).fill (grid0.coords t) d ((cfg0.win 4).cut (grid0.coords t) ((dats m 0 c).after 4 t)))))

set_option maxHeartbeats 800000 in
/-- The body at any point.  At a first K-tile the buffer it leaves is the running sum itself.  At a later one the
    buffer it found agrees with the running sum on the part inside the array, and the update is entry by entry, so
    what it leaves agrees with the new running sum there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  by_cases h0 : t.val % 4 = 0
  · rw [accAt_first m c t h0]
    unfold stepAt
    iintro ⟨HΦ, Ho, ⟨%d0, H0⟩, ⟨%d1, H1⟩, ⟨%d2, H2⟩, ⟨%d3, H3⟩, ⟨%d4, H4⟩⟩
    iapply ((run_first c (grid0.coords t) _ _ _ _ _ _ _ _ _ _ ((isFirst_iff t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexists (step (grid0.coords t) (iblk m c 0 t) (iblk m c 1 t) (iblk m c 2 t) (iblk m c 3 t) k0_pay2)
    rw [Window.fill_cut]
    iexact H4
  · rw [accAt_later m c t h0]
    unfold stepAt
    iintro ⟨HΦ, Ho, ⟨%d0, H0⟩, ⟨%d1, H1⟩, ⟨%d2, H2⟩, ⟨%d3, H3⟩, ⟨%d4, H4⟩⟩
    iapply ((run_later c (grid0.coords t) _ _ _ _ _ _ _ _ _ _ (fun h => h0 ((isFirst_iff t).mp h)) (iblk m c 0 t) (iblk m c 1 t) (iblk m c 2 t) (iblk m c 3 t) ((dats m 0 c).before 4 t d4)) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexists (step (grid0.coords t) (iblk m c 0 t) (iblk m c 1 t) (iblk m c 2 t) (iblk m c 3 t) ((dats m 0 c).before 4 t d4))
    rw [Window.fill_congr_cut (cfg0.win 4) (grid0.coords t) (funext fun j =>
      step_congr (grid0.coords t) (iblk m c 0 t) (iblk m c 1 t) (iblk m c 2 t) (iblk m c 3 t) _ _ _ (found_later m c t h0 d4 j))]
    iexact H4

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; every array of the pipeline ends at what the proof data
    computes (an input unchanged, the output its entry contents overwritten block by block by the running sums'
    parts inside the array) and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The frame: the run's post read at the four argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.Spec.lean ====
/-
  What both programs compute, as one function of the four argument arrays over the extended reals.

  A packed word holds eight 4-bit weights; weight `k` of output feature `o` is field `k % 8` of word `k / 8`,
  taken by an arithmetic shift and a mask, and belongs to quantization group `k / 128`.  The dequantized weight is
  (field − zero point) · scale, zero point and scale those of the group and the feature, and the result is the
  product of the activations with the transposed weights:

      G x qw qz sc (r, o) = Σ_{k < 4096} x (r, k) · ((field (qw (o, k / 8)) (k % 8) − qz (k / 128, o)) · sc (k / 128, o)).
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- Activations [4096, 4096]; packed weights [11008, 512]; zero points and scales [32, 11008]; the result [4096, 11008]. -/
abbrev SX : Shape := ⟨2, ![4096, 4096]⟩
abbrev SQ : Shape := ⟨2, ![11008, 512]⟩
abbrev SG : Shape := ⟨2, ![32, 11008]⟩
abbrev SO : Shape := ⟨2, ![4096, 11008]⟩

/-- Field `s` (of eight) of a packed word, as a number: the word shifted right arithmetically by `4 s`, masked with 15. -/
def field (w : BitVec 32) (s : Nat) : EReal :=
  (((IntOp.andi (IntOp.shrsi .host w (BitVec.ofNat 32 (4 * s))) 15#32).toInt : ℝ) : EReal)

/-- One dequantized weight from its packed word `w`, its field `s`, its group's zero point `z` and scale `σ`. -/
def wt (w : BitVec 32) (s : Nat) (z : BitVec 32) (σ : EReal) : EReal := (field w s - ((z.toInt : ℝ) : EReal)) * σ

/-- The dequantized weight of output feature `o` at input feature `k`. -/
def weight (qw : IVec SQ 32) (qz : IVec SG 32) (sc : FVec Ideal SG .f32) (o : Fin 11008) (k : Fin 4096) : EReal :=
  wt (qw (ix2 o (⟨k.val / 8, by omega⟩ : Fin 512))) (k.val % 8)
    (qz (ix2 (⟨k.val / 128, by omega⟩ : Fin 32) o)) (sc (ix2 (⟨k.val / 128, by omega⟩ : Fin 32) o))

/-- The result: activations times transposed dequantized weights. -/
def G (x : FVec Ideal SX .f32) (qw : IVec SQ 32) (qz : IVec SG 32) (sc : FVec Ideal SG .f32) : FVec Ideal SO .f32 :=
  fun i => ∑ k : Fin 4096, x (ix2 (i 0) k) * weight qw qz sc (i 1) k

/-- The kernel's order of summation: K-tile `a` (of four), then within the tile field `s` (of eight) outermost and
    packed column `p` (of 128) innermost, which is input feature `1024 a + 8 p + s`. -/
def tileIdx (a : Fin 4) (c : Fin 1024) : Fin 4096 := ⟨1024 * a.val + 8 * (c.val % 128) + c.val / 128, by omega⟩

end Cert.Spec

end
-- ==== Proof.StepValue.lean ====
/-
  The kernel body's update of the output tile, read at one entry, over the extended reals.

  At grid point (i, j, k) the body adds to entry (p, q) of the output tile the product of row p of the
  activation tile with row q of the dequantized weight tile W [1024 x 1024].  Column c of W is built from
  field c / 128 of the packed word in column c % 128 (eight [1024 x 128] slabs side by side, one per field),
  less the zero point and times the scale of group (c % 128) / 16 of the K-tile's eight groups, which is row
  8 k + (c % 128) / 16 of the 32 groups.  So the entry becomes

      Y (p, q) + Σ_{c < 1024} x (p, c) · wt (qw (q, c % 128)) (c / 128) (qz (8 k + (c % 128) / 16, q)) (sc (8 k + (c % 128) / 16, q)).
-/
import proofs.«405407_j53807350284787_4_alg».proof.Proof.BodyIdeal
import proofs.«405407_j53807350284787_4_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.KernelVsHost

set_option maxRecDepth 16384

noncomputable section

namespace Cert.KernelIdeal.StepValue

open Cert.KernelIdeal Cert.KernelIdeal.Gen Idealize.ShloMosaic Idealize.ShloMosaic.ValueIdx

/-! ## Eight slabs side by side -/

/-- Eight [1024 x 128] slabs concatenated along the columns, read at (q, c): slab c / 128 at column c % 128. -/
theorem concat8_apply {α : Type} (f : Fin 8 → S1024x128.Idx → α) (q c : Fin 1024) :
    concatenate S1024x1024 1 [⟨S1024x128, f 0⟩, ⟨S1024x128, f 1⟩, ⟨S1024x128, f 2⟩, ⟨S1024x128, f 3⟩, ⟨S1024x128, f 4⟩,
        ⟨S1024x128, f 5⟩, ⟨S1024x128, f 6⟩, ⟨S1024x128, f 7⟩]
      concatenates_S1024x128_S1024x128_S1024x128_S1024x128_S1024x128_S1024x128_S1024x128_S1024x128_S1024x1024_d1 (ix2 q c)
      = f ⟨c.val / 128, by omega⟩ (ix2 q (⟨c.val % 128, Nat.mod_lt _ (by norm_num)⟩ : Fin 128)) :=
  concatenate_ofFn_apply (t := S1024x1024) (s₁ := S1024x128) 1 f _ rfl 128 rfl (ix2 q c) ⟨c.val / 128, by omega⟩ rfl
    (ix2 q (⟨c.val % 128, Nat.mod_lt _ (by norm_num)⟩ : Fin 128)) rfl
    (fun b hb => match b, hb with
      | ⟨0, _⟩, _ => rfl
      | ⟨1, _⟩, hb => absurd rfl hb)

/-! ## One field of the packed words -/

/-- The packed words shifted right arithmetically by `4 s` and masked with 15, as numbers: field `s` of each word. -/
theorem nibble_apply (x1 : Vec Ideal S1024x128 .i32) (sh : BitVec 32) (s : Nat) (hs : sh = BitVec.ofNat 32 (4 * s)) (j : S1024x128.Idx) :
    (sitofp .bf16 (andi (shrsi (shapeCast S1024x128 x1 shapeCasts_S1024x128_S1024x128) (broadcast S1024x128 sh))
      (broadcast S1024x128 15#32)) : FVec Ideal S1024x128 .bf16) j = Cert.Spec.field (x1 j) s := by
  rw [shapeCast_self x1]
  show (((IntOp.andi (IntOp.shrsi .vector (x1 j) sh) 15#32).toInt : ℝ) : EReal) = _
  rw [hs, shrsi_unit .vector .host]
  rfl

/-- The eight slabs of fields, as one family. -/
def slab (x1 : Vec Ideal S1024x128 .i32) (s : Fin 8) : S1024x128.Idx → EReal := fun j => Cert.Spec.field (x1 j) s.val

theorem pay4_eq (x1 : Vec Ideal S1024x128 .i32) : k0_pay4 (F := Ideal) x1 = slab x1 0 :=
  funext fun j => nibble_apply x1 0#32 0 (by decide) j
theorem pay5_eq (x1 : Vec Ideal S1024x128 .i32) : k0_pay5 (F := Ideal) x1 = slab x1 1 :=
  funext fun j => nibble_apply x1 4#32 1 (by decide) j
theorem pay6_eq (x1 : Vec Ideal S1024x128 .i32) : k0_pay6 (F := Ideal) x1 = slab x1 2 :=
  funext fun j => nibble_apply x1 8#32 2 (by decide) j
theorem pay7_eq (x1 : Vec Ideal S1024x128 .i32) : k0_pay7 (F := Ideal) x1 = slab x1 3 :=
  funext fun j => nibble_apply x1 12#32 3 (by decide) j
theorem pay8_eq (x1 : Vec Ideal S1024x128 .i32) : k0_pay8 (F := Ideal) x1 = slab x1 4 :=
  funext fun j => nibble_apply x1 16#32 4 (by decide) j
theorem pay9_eq (x1 : Vec Ideal S1024x128 .i32) : k0_pay9 (F := Ideal) x1 = slab x1 5 :=
  funext fun j => nibble_apply x1 20#32 5 (by decide) j
theorem slab6_eq (x1 : Vec Ideal S1024x128 .i32) :
    (sitofp .bf16 (andi (k0_pay10 (F := Ideal) x1) k0_pay11) : FVec Ideal S1024x128 .bf16) = slab x1 6 :=
  funext fun j => nibble_apply x1 24#32 6 (by decide) j
theorem slab7_eq (x1 : Vec Ideal S1024x128 .i32) :
    (sitofp .bf16 (andi (shrsi (k0_pay3 (F := Ideal) x1) (broadcast S1024x128 28#32)) (broadcast S1024x128 15#32)) : FVec Ideal S1024x128 .bf16)
      = slab x1 7 :=
  funext fun j => nibble_apply x1 28#32 7 (by decide) j

/-! ## The group slab: eight rows, transposed and spread over sixteen columns each -/

/-- A [1024 x 8] array cast to [1024 x 8 x 1], broadcast to [1024 x 8 x 16] and cast to [1024 x 128], read at (q, c):
    the array at (q, c / 16). -/
theorem spread_apply {α : Type} (y : S1024x8.Idx → α) (q : Fin 1024) (c : Nat) (hc : c < 128) :
    shapeCast S1024x128 (broadcastTo S1024x8x16 (shapeCast S1024x8x1 (shapeCast S1024x8x1 y shapeCasts_S1024x8_S1024x8x1)
        shapeCasts_S1024x8x1_S1024x8x1) broadcasts_S1024x8x1_S1024x8x16) shapeCasts_S1024x8x16_S1024x128 (ix2 q (⟨c, hc⟩ : Fin 128))
      = y (ix2 q (⟨c / 16, by omega⟩ : Fin 8)) := by
  rw [shapeCast_self]
  refine (shapeCast_apply _ shapeCasts_S1024x8x16_S1024x128 (ix2 q (⟨c, hc⟩ : Fin 128))
    (ix3 q (⟨c / 16, by omega⟩ : Fin 8) (⟨c % 16, Nat.mod_lt _ (by norm_num)⟩ : Fin 16)) ?_).trans ?_
  · rw [Shape.rowMajor_val_three, Shape.rowMajor_val_two]
    show (q.val * 8 + c / 16) * 16 + c % 16 = q.val * 128 + c
    omega
  refine (broadcastTo_apply _ broadcasts_S1024x8x1_S1024x8x16 _ (ix3 q (⟨c / 16, by omega⟩ : Fin 8) (0 : Fin 1))
    (fun a => match a with | ⟨0, _⟩ => rfl | ⟨1, _⟩ => rfl | ⟨2, _⟩ => rfl)).trans ?_
  refine shapeCast_apply y shapeCasts_S1024x8_S1024x8x1 _ (ix2 q (⟨c / 16, by omega⟩ : Fin 8)) ?_
  rw [Shape.rowMajor_val_three, Shape.rowMajor_val_two]
  show q.val * 8 + c / 16 = (q.val * 8 + c / 16) * 1 + 0
  omega

/-! ## The K-tile's eight rows of the 32 groups -/

/-- The block of eight rows the body loads from a [32 x 1024] array at K-tile `a`, read at (g, q): row `8 a + g`. -/
theorem rows_apply {e : EltTy} (i : grid0.Coords) (a : Fin 4) (ha : (i 2).val = a.val) (x : Vec Ideal S32x1024 e) (g : Nat) (hg : g < 8)
    (q : Fin 1024) :
    View.ld (Val := Elt Ideal) (e' := e) x (Rect.unit (s := S32x1024) (k0_off1 i) ![8, 1024] (k0_off1_inb i)) (ix2 (⟨g, hg⟩ : Fin 8) q)
      = x (ix2 (⟨8 * a.val + g, by omega⟩ : Fin 32) q) := by
  refine congrArg x (funext fun b => Fin.ext ?_)
  have e := k0_off1_eq i
  match b with
  | ⟨0, _⟩ =>
    show k0_off1 i 0 + 1 * g = 8 * a.val + g
    rw [e, ← ha]; show 8 * (i 2).val + 1 * g = _; omega
  | ⟨1, _⟩ =>
    show k0_off1 i 1 + 1 * q.val = q.val
    rw [e]; show 0 + 1 * q.val = _; omega

/-! ## The product: rows of the activations against rows of the weights -/

theorem lhs_axis0 (j : S2048x1024.Idx) (k : dot_S2048x1024_S1024x1024_S2048x1024_1_1_0_0_n_n.contr.Idx) :
    (dot_S2048x1024_S1024x1024_S2048x1024_1_1_0_0_n_n.lhsIdx j k 0).val = (j 0).val := by
  unfold DotDims.lhsIdx
  rw [dif_neg (show ¬(0 : Fin S2048x1024.rank) ∈ dot_S2048x1024_S1024x1024_S2048x1024_1_1_0_0_n_n.lhsBatch by decide),
    dif_pos (show (0 : Fin S2048x1024.rank) ∈ dot_S2048x1024_S1024x1024_S2048x1024_1_1_0_0_n_n.lhsNonContracting by decide)]
  rfl
theorem lhs_axis1 (j : S2048x1024.Idx) (k : dot_S2048x1024_S1024x1024_S2048x1024_1_1_0_0_n_n.contr.Idx) :
    (dot_S2048x1024_S1024x1024_S2048x1024_1_1_0_0_n_n.lhsIdx j k 1).val = (k ⟨0, by decide⟩).val :=
  dot_S2048x1024_S1024x1024_S2048x1024_1_1_0_0_n_n.lhsIdx_val_of_single rfl j k
theorem rhs_axis0 (j : S2048x1024.Idx) (k : dot_S2048x1024_S1024x1024_S2048x1024_1_1_0_0_n_n.contr.Idx) :
    (dot_S2048x1024_S1024x1024_S2048x1024_1_1_0_0_n_n.rhsIdx j k 0).val = (j 1).val := by
  unfold DotDims.rhsIdx
  rw [dif_neg (show ¬(0 : Fin S1024x1024.rank) ∈ dot_S2048x1024_S1024x1024_S2048x1024_1_1_0_0_n_n.rhsBatch by decide),
    dif_pos (show (0 : Fin S1024x1024.rank) ∈ dot_S2048x1024_S1024x1024_S2048x1024_1_1_0_0_n_n.rhsNonContracting by decide)]
  rfl
theorem rhs_axis1 (j : S2048x1024.Idx) (k : dot_S2048x1024_S1024x1024_S2048x1024_1_1_0_0_n_n.contr.Idx) :
    (dot_S2048x1024_S1024x1024_S2048x1024_1_1_0_0_n_n.rhsIdx j k 1).val = (k ⟨0, by decide⟩).val :=
  dot_S2048x1024_S1024x1024_S2048x1024_1_1_0_0_n_n.rhsIdx_val_of_single rfl j k

/-- The body's product into the zero block, read at (p, q): row p of the left operand against row q of the right. -/
theorem product_apply (X : FVec Ideal S2048x1024 .bf16) (W : FVec Ideal S1024x1024 .bf16) (p : Fin 2048) (q : Fin 1024) :
    FloatOps.matmul dot_S2048x1024_S1024x1024_S2048x1024_1_1_0_0_n_n none X W (constant (F := Ideal) S2048x1024 .f32 0x00000000#32) (ix2 p q)
      = ∑ c : Fin 1024, X (ix2 p c) * W (ix2 q c) := by
  rw [Ideal.matmul_constant_zero_apply, ← Equiv.sum_comp (contrEquiv1 dot_S2048x1024_S1024x1024_S2048x1024_1_1_0_0_n_n 1024 rfl rfl).symm]
  refine Finset.sum_congr rfl fun c _ => ?_
  have hc := contrEquiv1_symm_val dot_S2048x1024_S1024x1024_S2048x1024_1_1_0_0_n_n 1024 rfl rfl c
  have el : dot_S2048x1024_S1024x1024_S2048x1024_1_1_0_0_n_n.lhsIdx (ix2 p q)
      ((contrEquiv1 dot_S2048x1024_S1024x1024_S2048x1024_1_1_0_0_n_n 1024 rfl rfl).symm c) = ix2 p c := funext fun a => Fin.ext (by
    match a with
    | ⟨0, _⟩ => exact lhs_axis0 _ _
    | ⟨1, _⟩ => exact (lhs_axis1 _ _).trans hc)
  have er : dot_S2048x1024_S1024x1024_S2048x1024_1_1_0_0_n_n.rhsIdx (ix2 p q)
      ((contrEquiv1 dot_S2048x1024_S1024x1024_S2048x1024_1_1_0_0_n_n 1024 rfl rfl).symm c) = ix2 q c := funext fun a => Fin.ext (by
    match a with
    | ⟨0, _⟩ => exact rhs_axis0 _ _
    | ⟨1, _⟩ => exact (rhs_axis1 _ _).trans hc)
  rw [el, er]

/-- Eight copies of one slab side by side, read at (q, c): the slab at column c % 128. -/
theorem concat8_same_apply {α : Type} (g : S1024x128.Idx → α) (q c : Fin 1024) :
    concatenate S1024x1024 1 [⟨S1024x128, g⟩, ⟨S1024x128, g⟩, ⟨S1024x128, g⟩, ⟨S1024x128, g⟩, ⟨S1024x128, g⟩,
        ⟨S1024x128, g⟩, ⟨S1024x128, g⟩, ⟨S1024x128, g⟩]
      concatenates_S1024x128_S1024x128_S1024x128_S1024x128_S1024x128_S1024x128_S1024x128_S1024x128_S1024x1024_d1 (ix2 q c)
      = g (ix2 q (⟨c.val % 128, Nat.mod_lt _ (by norm_num)⟩ : Fin 128)) :=
  concat8_apply (fun _ => g) q c

/-! ## The update at one entry -/

theorem step_apply (i : grid0.Coords) (a : Fin 4) (ha : (i 2).val = a.val)
    (x0 : Vec Ideal S2048x1024 .bf16) (x1 : Vec Ideal S1024x128 .i32) (x2 : Vec Ideal S32x1024 .i32) (x3 : Vec Ideal S32x1024 .f32)
    (Y : Vec Ideal S2048x1024 .f32) (p : Fin 2048) (q : Fin 1024) :
    Cert.KernelIdeal.Body.step (F := Ideal) i x0 x1 x2 x3 Y (ix2 p q)
      = Y (ix2 p q) + ∑ c : Fin 1024, x0 (ix2 p c) *
          Cert.Spec.wt (x1 (ix2 q (⟨c.val % 128, Nat.mod_lt _ (by norm_num)⟩ : Fin 128))) (c.val / 128)
            (x2 (ix2 (⟨8 * a.val + c.val % 128 / 16, by omega⟩ : Fin 32) q))
            (x3 (ix2 (⟨8 * a.val + c.val % 128 / 16, by omega⟩ : Fin 32) q)) := by
  unfold Cert.KernelIdeal.Body.step k0_pay1
  dsimp only
  rw [pay4_eq, pay5_eq, pay6_eq, pay7_eq, pay8_eq, pay9_eq, slab6_eq, slab7_eq]
  rw [addf_apply, shapeCast_self Y, shapeCast_self x0]
  refine congrArg (Y (ix2 p q) + ·) ?_
  refine (product_apply _ _ p q).trans ?_
  refine Finset.sum_congr rfl fun c _ => congrArg (x0 (ix2 p c) * ·) ?_
  rw [truncf_apply, mulf_apply, subf_apply, extf_apply]
  rw [concat8_apply (slab x1) q c, concat8_same_apply, concat8_same_apply, spread_apply, spread_apply]
  rw [sitofp_apply, transpose_ix2_apply, transpose_ix2_apply, shapeCast_self, shapeCast_self]
  rw [rows_apply i a ha x2, rows_apply i a ha x3]
  rfl

/-! ## The zero block -/

/-- The block the first K-tile stores beforehand is zero at every entry. -/
theorem zero_apply (j : S2048x1024.Idx) : Gen.k0_pay2 (F := Ideal) j = 0 := by
  show Ideal.ofBits .f32 0x00000000#32 = 0
  exact Ideal.ofBits_zero_f32

end Cert.KernelIdeal.StepValue

end
-- ==== Proof.Blocks.lean ====
/-
  The pipeline's input blocks, read back to the program's argument arrays over the extended reals.

  Before its one region the program pads the packed weights [11008, 512] to [11264, 512] and the zero points and the
  scales [32, 11008] to [32, 11264] with zeros past the last output feature, and permutes the activations' columns:
  [4096, 4096] is read as [4096, 4, 128, 8], its last two axes are exchanged, and the result is read as [4096, 4096]
  again, so that column `1024 a + 128 s + p` of the permuted array is column `1024 a + 8 p + s` of the argument, which is
  `Cert.Spec.tileIdx a (128 s + p)`.  The grid is [2, 11, 4], last axis fastest: point `t` has coordinates
  `(i, j, k) = (t / 44, t / 4 % 11, t % 4)`.  The windows cut the permuted activations into blocks [2048, 1024] at block
  `(i, k)`, the padded weights into blocks [1024, 128] at `(j, k)`, and the padded zero points and scales into blocks
  [32, 1024] at `(0, j)`.  An element of a block sits in its array, on each axis, at the block index times the block's
  size plus its own coordinate; where the output feature `1024 j + q` is below 11008 the padded arrays are the
  arguments themselves.
-/
import proofs.«405407_j53807350284787_4_alg».proof.Proof.Gen.KernelIdeal.Frame
import proofs.«405407_j53807350284787_4_alg».proof.Proof.Spec
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

set_option maxRecDepth 16384

noncomputable section

namespace Cert.KernelIdeal.Blocks

open Cert.KernelIdeal Cert.KernelIdeal.Gen Idealize.ShloMosaic Idealize.ShloMosaic.ValueIdx

variable (m : (ℓ : Loc nD τ sig) → Buf (Elt Ideal) ℓ) (c : Dev nD)

open Idealize.ShloMosaic.TcCoe

/-- The grid has 88 points. -/
theorem t_lt (t : Fin cfg0.N) : t.val < 88 := lt_of_lt_of_eq t.isLt Gen.N_0

/-- A point's coordinates on the grid [2, 11, 4], last axis fastest. -/
theorem coords_eq (t : Fin cfg0.N) : ((grid0.coords t) 0).val = t.val / 44 ∧ ((grid0.coords t) 1).val = t.val / 4 % 11 ∧ ((grid0.coords t) 2).val = t.val % 4 :=
  (by decide +kernel : ∀ t : Fin grid0.N, ((grid0.coords t) 0).val = t.val / 44 ∧ ((grid0.coords t) 1).val = t.val / 4 % 11 ∧ ((grid0.coords t) 2).val = t.val % 4) t

/-! ## The windows' block indices in closed form -/

/-- Window 0 (activations): block `(i, k)`. -/
theorem idx0 : ∀ t : Fin cfg0.N, win0_0.index t (0 : Fin 2) = t.val / 44 ∧ win0_0.index t (1 : Fin 2) = t.val % 4 :=
  (by decide +kernel : ∀ t : Fin grid0.N, _)
/-- Window 1 (packed weights): block `(j, k)`. -/
theorem idx1 : ∀ t : Fin cfg0.N, win0_1.index t (0 : Fin 2) = t.val / 4 % 11 ∧ win0_1.index t (1 : Fin 2) = t.val % 4 :=
  (by decide +kernel : ∀ t : Fin grid0.N, _)
/-- Window 2 (zero points): block `(0, j)`. -/
theorem idx2 : ∀ t : Fin cfg0.N, win0_2.index t (0 : Fin 2) = 0 ∧ win0_2.index t (1 : Fin 2) = t.val / 4 % 11 :=
  (by decide +kernel : ∀ t : Fin grid0.N, _)
/-- Window 3 (scales): block `(0, j)`. -/
theorem idx3 : ∀ t : Fin cfg0.N, win0_3.index t (0 : Fin 2) = 0 ∧ win0_3.index t (1 : Fin 2) = t.val / 4 % 11 :=
  (by decide +kernel : ∀ t : Fin grid0.N, _)

/-! ## The arrays the region finds, as terms of the argument arrays -/

/-- The permuted activations: the argument narrowed, read as [4096, 4, 128, 8], its last two axes exchanged, read as
    [4096, 4096]. -/
theorem V6_eq : @Eq (S4096x4096.Idx → EReal) (Gen.V m c main_v6)
    (shapeCast S4096x4096 (transpose S4096x4x8x128 [0, 1, 3, 2]
        (shapeCast S4096x4x128x8 (truncf (F := Ideal) .bf16 (m ((c : Thread nD τ).loc main_arg0) : FVec Ideal S4096x4096 .f32) bitsLt_bf16_f32) shapeCasts_S4096x4096_S4096x4x128x8)
        transposes_S4096x4x128x8_S4096x4x8x128_0_1_3_2) shapeCasts_S4096x4x8x128_S4096x4096) := by
  dsimp only [Gen.V]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The padded packed weights: 256 rows of zeros after the argument's rows. -/
theorem V0_eq : @Eq (S11264x512.Idx → BitVec 32) (Gen.V m c main_v0)
    (pad S11264x512 ![0, 0] ![256, 0] ![0, 0] (m ((c : Thread nD τ).loc main_arg1) : IVec S11008x512 32) (constantI S_ 32 0#32) pads_S11008x512_S11264x512_02560_000 h_S_) := by
  dsimp only [Gen.V]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The padded zero points: 256 columns of zeros after the argument's columns. -/
theorem V1_eq : @Eq (S32x11264.Idx → BitVec 32) (Gen.V m c main_v1)
    (pad S32x11264 ![0, 0] ![0, 256] ![0, 0] (m ((c : Thread nD τ).loc main_arg2) : IVec S32x11008 32) (constantI S_ 32 0#32) pads_S32x11008_S32x11264_000_02560 h_S_) := by
  dsimp only [Gen.V]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The padded scales: 256 columns of zeros after the argument's columns. -/
theorem V2_eq : @Eq (S32x11264.Idx → EReal) (Gen.V m c main_v2)
    (pad S32x11264 ![0, 0] ![0, 256] ![0, 0] (m ((c : Thread nD τ).loc main_arg3) : FVec Ideal S32x11008 .f32) (sitofp (F := Ideal) .f32 (constantI S_ 32 0#32)) pads_S32x11008_S32x11264_000_02560 h_S_) := by
  dsimp only [Gen.V]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-! ## Those terms read at an index -/

/-- The activations' permutation: column `1024 a + c` of the permuted array is column `tileIdx a c` of the operand
    (split `c = 128 s + p`; the two reshapes keep the row-major position, the transpose swaps `s` and `p`). -/
theorem perm_apply (x : FVec Ideal S4096x4096 .f32) (r : Fin 4096) (a : Fin 4) (cc : Fin 1024) :
    shapeCast S4096x4096 (transpose S4096x4x8x128 [0, 1, 3, 2]
        (shapeCast S4096x4x128x8 (truncf .bf16 x bitsLt_bf16_f32) shapeCasts_S4096x4096_S4096x4x128x8)
        transposes_S4096x4x128x8_S4096x4x8x128_0_1_3_2) shapeCasts_S4096x4x8x128_S4096x4096
      (ix2 r (⟨1024 * a.val + cc.val, by omega⟩ : Fin 4096)) = x (ix2 r (Cert.Spec.tileIdx a cc)) := by
  rw [shapeCast_apply _ _ _ (ix4 r a (⟨cc.val / 128, by omega⟩ : Fin 8) (⟨cc.val % 128, by omega⟩ : Fin 128))
    (by rw [Shape.rowMajor_val_four, Shape.rowMajor_val_two]; show ((r.val * 4 + a.val) * 8 + cc.val / 128) * 128 + cc.val % 128 = r.val * 4096 + (1024 * a.val + cc.val); omega)]
  rw [transpose_apply _ _ _ _ (ix4 r a (⟨cc.val % 128, by omega⟩ : Fin 128) (⟨cc.val / 128, by omega⟩ : Fin 8))
    (by intro b; match b with | ⟨0, _⟩ => rfl | ⟨1, _⟩ => rfl | ⟨2, _⟩ => rfl | ⟨3, _⟩ => rfl)]
  rw [shapeCast_apply _ _ _ (ix2 r (Cert.Spec.tileIdx a cc))
    (by rw [Shape.rowMajor_val_four, Shape.rowMajor_val_two]; show r.val * 4096 + (1024 * a.val + 8 * (cc.val % 128) + cc.val / 128) = ((r.val * 4 + a.val) * 128 + cc.val % 128) * 8 + cc.val / 128; omega)]
  rfl

/-- Rows padded at the end: a row of the operand is read back unchanged. -/
theorem pad_rows_apply (x : IVec S11008x512 32) (v : S_.Idx → BitVec 32) (q : Fin 11008) (k : Fin 512) :
    pad S11264x512 ![0, 0] ![256, 0] ![0, 0] x v pads_S11008x512_S11264x512_02560_000 h_S_ (ix2 (⟨q.val, by omega⟩ : Fin 11264) k) = x (ix2 q k) :=
  pad_apply_of_inside _ _ _ x v _ _ _ (ix2 q k) (by
    intro a
    match a with
    | ⟨0, _⟩ => show q.val = 0 + q.val * (0 + 1); omega
    | ⟨1, _⟩ => show k.val = 0 + k.val * (0 + 1); omega)

/-- Columns padded at the end: a column of the operand is read back unchanged. -/
theorem pad_cols_apply {α : Type} (x : S32x11008.Idx → α) (v : S_.Idx → α) (g : Fin 32) (q : Fin 11008) :
    pad S32x11264 ![0, 0] ![0, 256] ![0, 0] x v pads_S32x11008_S32x11264_000_02560 h_S_ (ix2 g (⟨q.val, by omega⟩ : Fin 11264)) = x (ix2 g q) :=
  pad_apply_of_inside _ _ _ x v _ _ _ (ix2 g q) (by
    intro a
    match a with
    | ⟨0, _⟩ => show g.val = 0 + g.val * (0 + 1); omega
    | ⟨1, _⟩ => show q.val = 0 + q.val * (0 + 1); omega)

/-! ## The blocks -/

/-- Block `(i, k)` of the permuted activations: row `2048 i + p` of the argument, at the columns of K-tile `k` in
    the kernel's order of summation. -/
theorem blk0 (t : Fin cfg0.N) (p : Fin 2048) (cc : Fin 1024) :
    Gen.iblk (F := Ideal) m c 0 t (ix2 p cc)
      = m ((c : Thread nD τ).loc main_arg0) (ix2 (⟨2048 * (t.val / 44) + p.val, by have := t_lt t; omega⟩ : Fin 4096) (Cert.Spec.tileIdx ⟨t.val % 4, Nat.mod_lt _ (by norm_num)⟩ cc)) := by
  have ht := t_lt t
  obtain ⟨e0, e1⟩ := idx0 t
  show (Gen.V m c main_v6 : S4096x4096.Idx → EReal) (((cfg0.win 0).blk t).view.emb (ix2 p cc)) = _
  have hemb : ((cfg0.win 0).blk t).view.emb (ix2 p cc)
      = ix2 (⟨2048 * (t.val / 44) + p.val, by omega⟩ : Fin 4096) (⟨1024 * (⟨t.val % 4, Nat.mod_lt _ (by norm_num)⟩ : Fin 4).val + cc.val, by omega⟩ : Fin 4096) := by
    funext a; apply Fin.ext
    match a with
    | ⟨0, _⟩ => show win0_0.index t (0 : Fin 2) * 2048 + 1 * p.val = 2048 * (t.val / 44) + p.val; omega
    | ⟨1, _⟩ => show win0_0.index t (1 : Fin 2) * 1024 + 1 * cc.val = 1024 * (t.val % 4) + cc.val; omega
  rw [hemb, V6_eq, perm_apply]

/-- Block `(j, k)` of the padded packed weights, at an output feature `1024 j + q` of the argument. -/
theorem blk1 (t : Fin cfg0.N) (q : Fin 1024) (pp : Fin 128) (h : 1024 * (t.val / 4 % 11) + q.val < 11008) :
    Gen.iblk (F := Ideal) m c 1 t (ix2 q pp)
      = m ((c : Thread nD τ).loc main_arg1) (ix2 (⟨1024 * (t.val / 4 % 11) + q.val, h⟩ : Fin 11008) (⟨128 * (t.val % 4) + pp.val, by omega⟩ : Fin 512)) := by
  have ht := t_lt t
  obtain ⟨e0, e1⟩ := idx1 t
  show (Gen.V m c main_v0 : S11264x512.Idx → BitVec 32) (((cfg0.win 1).blk t).view.emb (ix2 q pp)) = _
  have hemb : ((cfg0.win 1).blk t).view.emb (ix2 q pp)
      = ix2 (⟨(⟨1024 * (t.val / 4 % 11) + q.val, h⟩ : Fin 11008).val, by omega⟩ : Fin 11264) (⟨128 * (t.val % 4) + pp.val, by omega⟩ : Fin 512) := by
    funext a; apply Fin.ext
    match a with
    | ⟨0, _⟩ => show win0_1.index t (0 : Fin 2) * 1024 + 1 * q.val = 1024 * (t.val / 4 % 11) + q.val; omega
    | ⟨1, _⟩ => show win0_1.index t (1 : Fin 2) * 128 + 1 * pp.val = 128 * (t.val % 4) + pp.val; omega
  rw [hemb, V0_eq, pad_rows_apply]

/-- Block `(0, j)` of the padded zero points, at an output feature `1024 j + q` of the argument. -/
theorem blk2 (t : Fin cfg0.N) (g : Fin 32) (q : Fin 1024) (h : 1024 * (t.val / 4 % 11) + q.val < 11008) :
    Gen.iblk (F := Ideal) m c 2 t (ix2 g q) = m ((c : Thread nD τ).loc main_arg2) (ix2 g (⟨1024 * (t.val / 4 % 11) + q.val, h⟩ : Fin 11008)) := by
  have ht := t_lt t
  obtain ⟨e0, e1⟩ := idx2 t
  show (Gen.V m c main_v1 : S32x11264.Idx → BitVec 32) (((cfg0.win 2).blk t).view.emb (ix2 g q)) = _
  have hemb : ((cfg0.win 2).blk t).view.emb (ix2 g q)
      = ix2 g (⟨(⟨1024 * (t.val / 4 % 11) + q.val, h⟩ : Fin 11008).val, by omega⟩ : Fin 11264) := by
    funext a; apply Fin.ext
    match a with
    | ⟨0, _⟩ => show win0_2.index t (0 : Fin 2) * 32 + 1 * g.val = g.val; omega
    | ⟨1, _⟩ => show win0_2.index t (1 : Fin 2) * 1024 + 1 * q.val = 1024 * (t.val / 4 % 11) + q.val; omega
  rw [hemb, V1_eq, pad_cols_apply]

/-- Block `(0, j)` of the padded scales, at an output feature `1024 j + q` of the argument. -/
theorem blk3 (t : Fin cfg0.N) (g : Fin 32) (q : Fin 1024) (h : 1024 * (t.val / 4 % 11) + q.val < 11008) :
    Gen.iblk (F := Ideal) m c 3 t (ix2 g q) = m ((c : Thread nD τ).loc main_arg3) (ix2 g (⟨1024 * (t.val / 4 % 11) + q.val, h⟩ : Fin 11008)) := by
  have ht := t_lt t
  obtain ⟨e0, e1⟩ := idx3 t
  show (Gen.V m c main_v2 : S32x11264.Idx → EReal) (((cfg0.win 3).blk t).view.emb (ix2 g q)) = _
  have hemb : ((cfg0.win 3).blk t).view.emb (ix2 g q)
      = ix2 g (⟨(⟨1024 * (t.val / 4 % 11) + q.val, h⟩ : Fin 11008).val, by omega⟩ : Fin 11264) := by
    funext a; apply Fin.ext
    match a with
    | ⟨0, _⟩ => show win0_3.index t (0 : Fin 2) * 32 + 1 * g.val = g.val; omega
    | ⟨1, _⟩ => show win0_3.index t (1 : Fin 2) * 1024 + 1 * q.val = 1024 * (t.val / 4 % 11) + q.val; omega
  rw [hemb, V2_eq, pad_cols_apply]

end Cert.KernelIdeal.Blocks
end
-- ==== Proof.SumTiles.lean ====
/-
  The kernel's order of summation is a rearrangement of the 4096 input features.

  Input feature `k` is written uniquely as `k = 1024 a + 8 p + s` with K-tile `a < 4`, packed column `p < 128`
  and field `s < 8`; the kernel visits the pair `(a, c)` with `c = 128 s + p`, i.e. `p = c % 128` and `s = c / 128`.
  So `(a, c) ↦ tileIdx a c` is a bijection of `Fin 4 × Fin 1024` onto `Fin 4096`, with inverse
  `k ↦ (k / 1024, 128 (k % 8) + k % 1024 / 8)`, and a sum over the pairs is the sum over the features, in any
  additive commutative monoid.  Three quotients and remainders of `tileIdx a c` locate the packed word (`/ 8`),
  the field in it (`% 8`) and the quantization group (`/ 128`).
-/
import proofs.«405407_j53807350284787_4_alg».proof.Proof.Spec
import Mathlib.Algebra.BigOperators.Fin
import Mathlib.Algebra.BigOperators.Group.Finset.Basic
import Mathlib.Logic.Equiv.Fin.Basic

namespace Cert.Spec

/-- The packed word of feature `tileIdx a c`: word `128 a + p` with `p = c % 128`. -/
theorem tileIdx_div8 (a : Fin 4) (c : Fin 1024) : (tileIdx a c).val / 8 = 128 * a.val + c.val % 128 := by
  simp only [tileIdx]
  omega

/-- The field of feature `tileIdx a c` in its packed word: `s = c / 128`. -/
theorem tileIdx_mod8 (a : Fin 4) (c : Fin 1024) : (tileIdx a c).val % 8 = c.val / 128 := by
  simp only [tileIdx]
  omega

/-- The quantization group of feature `tileIdx a c`: eight groups per K-tile, sixteen packed columns per group. -/
theorem tileIdx_div128 (a : Fin 4) (c : Fin 1024) : (tileIdx a c).val / 128 = 8 * a.val + c.val % 128 / 16 := by
  simp only [tileIdx]
  omega

/-- The rearrangement as an equivalence: `k = 1024 a + 8 p + s` is recovered from `a = k / 1024`, `s = k % 8`,
    `p = k % 1024 / 8`, and `c = 128 s + p`. -/
def tileEquiv : Fin 4 × Fin 1024 ≃ Fin 4096 where
  toFun q := tileIdx q.1 q.2
  invFun k := (⟨k.val / 1024, by omega⟩, ⟨128 * (k.val % 8) + k.val % 1024 / 8, by omega⟩)
  left_inv := by
    rintro ⟨a, c⟩
    refine Prod.ext (Fin.ext ?_) (Fin.ext ?_)
    · simp only [tileIdx]
      omega
    · -- with `n = 1024 a + 8 p + s`: `n % 8 = s` and `n % 1024 = 8 p + s`, whose quotient by 8 is `p`
      simp only [tileIdx]
      have h1 : (1024 * a.val + 8 * (c.val % 128) + c.val / 128) % 8 = c.val / 128 := by omega
      have h2 : (1024 * a.val + 8 * (c.val % 128) + c.val / 128) % 1024 = 8 * (c.val % 128) + c.val / 128 := by
        omega
      rw [h1, h2]
      omega
  right_inv := by
    intro k
    refine Fin.ext ?_
    -- with `c = 128 s + p`, `s = k % 8`, `p = k % 1024 / 8 < 128`: `c % 128 = p` and `c / 128 = s`
    simp only [tileIdx]
    have h1 : (128 * (k.val % 8) + k.val % 1024 / 8) % 128 = k.val % 1024 / 8 := by omega
    have h2 : (128 * (k.val % 8) + k.val % 1024 / 8) / 128 = k.val % 8 := by omega
    rw [h1, h2]
    omega

/-- Summing tile by tile, and within a tile in the kernel's order, is summing over all input features. -/
theorem sum_tiles {M : Type} [AddCommMonoid M] (f : Fin 4096 → M) :
    ∑ a : Fin 4, ∑ c : Fin 1024, f (tileIdx a c) = ∑ k : Fin 4096, f k := by
  refine (Fintype.sum_prod_type' (fun a c => f (tileIdx a c))).symm.trans ?_
  exact Fintype.sum_equiv tileEquiv _ _ (fun _ => rfl)

end Cert.Spec
-- ==== Proof.KernelValue.lean ====
/-
  The idealized kernel's result array is the specification's `G` of the four argument arrays.

  After the fourth K-tile of an output block the staging buffer holds, at an entry inside the array, the sum over
  the four tiles of the tile's 1024 products.  Read back through the input blocks to the argument arrays these are
  the products `x (r, k) · weight (o, k)` at the input features `k = 1024 a + 8 p + s` — each of the 4096 exactly
  once —, so the entry is `G (r, o)`.  Those are the points that write the buffer back, and their blocks' parts
  inside the array cover it: row block `r / 2048`, column block `o / 1024`.
-/
import proofs.«405407_j53807350284787_4_alg».proof.Proof.BodyIdeal
import proofs.«405407_j53807350284787_4_alg».proof.Proof.Spec
import proofs.«405407_j53807350284787_4_alg».proof.Proof.StepValue
import proofs.«405407_j53807350284787_4_alg».proof.Proof.Blocks
import proofs.«405407_j53807350284787_4_alg».proof.Proof.SumTiles
import Idealize.ShloMosaic.Lib.Pipeline.Value
import Idealize.ShloMosaic.Lib.ValueIdx

set_option maxRecDepth 16384

noncomputable section

namespace Cert.KernelIdeal.KernelValue

open Cert.KernelIdeal Cert.KernelIdeal.Gen Cert.KernelIdeal.Body
open Idealize.ShloMosaic Idealize.ShloMosaic.TcCoe Idealize.ShloMosaic.ValueIdx
open Idealize.SL.Sem
open Idealize.ShloMosaic.Pipeline (Dat Cfg Window)
open Cert.Spec

variable (m : (ℓ : Loc nD τ sig) → Buf (Elt Ideal) ℓ) (c : Dev nD)

/-- The four argument arrays. -/
abbrev X : FVec Ideal SX .f32 := m ((c : Thread nD τ).loc main_arg0)
abbrev QW : IVec SQ 32 := m ((c : Thread nD τ).loc main_arg1)
abbrev QZ : IVec SG 32 := m ((c : Thread nD τ).loc main_arg2)
abbrev SC : FVec Ideal SG .f32 := m ((c : Thread nD τ).loc main_arg3)

theorem N88 : cfg0.N = 88 := Gen.N_0

/-- The dequantized weight at the input feature the kernel visits at K-tile `a`, column `c`: its packed word is
    column `128 a + c % 128`, its field `c / 128`, its group `8 a + (c % 128) / 16`. -/
theorem weight_tile (qw : IVec SQ 32) (qz : IVec SG 32) (sc : FVec Ideal SG .f32) (o : Fin 11008) (a : Fin 4) (cc : Fin 1024) :
    weight qw qz sc o (tileIdx a cc)
      = wt (qw (ix2 o (⟨128 * a.val + cc.val % 128, by omega⟩ : Fin 512))) (cc.val / 128)
          (qz (ix2 (⟨8 * a.val + cc.val % 128 / 16, by omega⟩ : Fin 32) o))
          (sc (ix2 (⟨8 * a.val + cc.val % 128 / 16, by omega⟩ : Fin 32) o)) := by
  unfold weight
  have h1 : (⟨(tileIdx a cc).val / 8, by omega⟩ : Fin 512) = ⟨128 * a.val + cc.val % 128, by omega⟩ := Fin.ext (tileIdx_div8 a cc)
  have h3 : (⟨(tileIdx a cc).val / 128, by omega⟩ : Fin 32) = ⟨8 * a.val + cc.val % 128 / 16, by omega⟩ := Fin.ext (tileIdx_div128 a cc)
  rw [h1, h3, tileIdx_mod8]

/-- One K-tile's update at an entry inside the array, read back to the argument arrays: the old entry plus the
    tile's 1024 products. -/
theorem stepAt_apply (t : Fin cfg0.N) (Y : Vec Ideal S2048x1024 .f32) (p : Fin 2048) (q : Fin 1024)
    (h : 1024 * (t.val / 4 % 11) + q.val < 11008) :
    stepAt (F := Ideal) m c t Y (ix2 p q)
      = Y (ix2 p q) + ∑ cc : Fin 1024,
          X m c (ix2 (⟨2048 * (t.val / 44) + p.val, by have := t.isLt; have := N88; omega⟩ : Fin 4096) (tileIdx ⟨t.val % 4, Nat.mod_lt _ (by norm_num)⟩ cc))
            * weight (QW m c) (QZ m c) (SC m c) ⟨1024 * (t.val / 4 % 11) + q.val, h⟩ (tileIdx ⟨t.val % 4, Nat.mod_lt _ (by norm_num)⟩ cc) := by
  unfold stepAt
  rw [StepValue.step_apply (grid0.coords t) ⟨t.val % 4, Nat.mod_lt _ (by norm_num)⟩ (Blocks.coords_eq t).2.2]
  congr 1
  refine Finset.sum_congr rfl fun cc _ => ?_
  rw [weight_tile, Blocks.blk0 m c t p cc, Blocks.blk1 m c t q _ h, Blocks.blk2 m c t _ q h, Blocks.blk3 m c t _ q h]

/-! ## The running sum, read back -/

/-- K-tile `a`'s column `cc` as an input feature, for `a` a natural number (taken modulo four). -/
def tileK (a : ℕ) (cc : Fin 1024) : Fin 4096 := tileIdx ⟨a % 4, Nat.mod_lt _ (by norm_num)⟩ cc

theorem tileK_mod (a : ℕ) (cc : Fin 1024) : tileK (a % 4) cc = tileK a cc := by
  unfold tileK; congr 1; exact Fin.ext (Nat.mod_mod _ _)

/-- The 1024 products of K-tile `a` at row `r` of the activations and output feature `o`. -/
def tileSum (r : Fin 4096) (o : Fin 11008) (a : ℕ) : EReal :=
  ∑ cc : Fin 1024, X m c (ix2 r (tileK a cc)) * weight (QW m c) (QZ m c) (SC m c) o (tileK a cc)

theorem tileSum_mod (r : Fin 4096) (o : Fin 11008) (a : ℕ) : tileSum m c r o (a % 4) = tileSum m c r o a := by
  unfold tileSum; exact Finset.sum_congr rfl fun cc _ => by rw [tileK_mod]

/-- One K-tile's update at an entry of row `r`, output feature `o`: the old entry plus the tile's products. -/
theorem stepAt_tile (t : Fin cfg0.N) (Y : Vec Ideal S2048x1024 .f32) (p : Fin 2048) (q : Fin 1024) (r : Fin 4096) (o : Fin 11008)
    (hr : r.val = 2048 * (t.val / 44) + p.val) (ho : o.val = 1024 * (t.val / 4 % 11) + q.val) :
    stepAt (F := Ideal) m c t Y (ix2 p q) = Y (ix2 p q) + tileSum m c r o t.val := by
  have h : 1024 * (t.val / 4 % 11) + q.val < 11008 := by have := o.isLt; omega
  have er : (⟨2048 * (t.val / 44) + p.val, by have := t.isLt; have := N88; omega⟩ : Fin 4096) = r := Fin.ext hr.symm
  have eo : (⟨1024 * (t.val / 4 % 11) + q.val, h⟩ : Fin 11008) = o := Fin.ext ho.symm
  rw [stepAt_apply m c t Y p q h, er, eo]
  rfl

/-- After point `n` the output's buffer holds, at an entry inside the array, the products of the K-tiles up to
    `n`'s own: the first K-tile starts from zero, a later one adds to what the point before left, and the four
    K-tiles of an output block share its row `r` and column `o`. -/
theorem acc_apply : ∀ (n : ℕ) (hn : n < cfg0.N) (p : Fin 2048) (q : Fin 1024) (r : Fin 4096) (o : Fin 11008),
    r.val = 2048 * (n / 44) + p.val → o.val = 1024 * (n / 4 % 11) + q.val →
    accAt (F := Ideal) m c n hn (ix2 p q) = ∑ a ∈ Finset.range (n % 4 + 1), tileSum m c r o a := by
  intro n
  induction n with
  | zero =>
    intro hn p q r o hr ho
    show stepAt (F := Ideal) m c ⟨0, hn⟩ (k0_pay2 (F := Ideal)) (ix2 p q) = _
    rw [stepAt_tile m c ⟨0, hn⟩ _ p q r o hr ho, StepValue.zero_apply, zero_add]
    show tileSum m c r o 0 = _
    rw [Nat.zero_mod, Finset.sum_range_one]
  | succ n ih =>
    intro hn p q r o hr ho
    show stepAt (F := Ideal) m c ⟨n + 1, hn⟩ (if (n + 1) % 4 = 0 then k0_pay2 (F := Ideal) else accAt m c n (Nat.lt_of_succ_lt hn)) (ix2 p q) = _
    rw [stepAt_tile m c ⟨n + 1, hn⟩ _ p q r o hr ho]
    show _ + tileSum m c r o (n + 1) = _
    rw [Finset.sum_range_succ, tileSum_mod]
    congr 1
    by_cases h0 : (n + 1) % 4 = 0
    · rw [if_pos h0, StepValue.zero_apply, h0, Finset.sum_range_zero]
    · rw [if_neg h0, ih (Nat.lt_of_succ_lt hn) p q r o (by omega) (by omega), show (n + 1) % 4 = n % 4 + 1 by omega]

/-- After the fourth K-tile: `G` at the entry. -/
theorem acc_last (t : Fin cfg0.N) (h3 : t.val % 4 = 3) (p : Fin 2048) (q : Fin 1024) (r : Fin 4096) (o : Fin 11008)
    (hr : r.val = 2048 * (t.val / 44) + p.val) (ho : o.val = 1024 * (t.val / 4 % 11) + q.val) :
    accAt (F := Ideal) m c t.val t.isLt (ix2 p q) = G (X m c) (QW m c) (QZ m c) (SC m c) (ix2 r o) := by
  rw [acc_apply m c t.val t.isLt p q r o hr ho, h3]
  show _ = ∑ k : Fin 4096, X m c (ix2 r k) * weight (QW m c) (QZ m c) (SC m c) o k
  rw [← sum_tiles (fun k => X m c (ix2 r k) * weight (QW m c) (QZ m c) (SC m c) o k),
    ← Fin.sum_univ_eq_sum_range (fun a => tileSum m c r o a) 4]
  refine Finset.sum_congr rfl fun a _ => ?_
  have ea : (⟨a.val % 4, Nat.mod_lt _ (by norm_num)⟩ : Fin 4) = a := Fin.ext (Nat.mod_eq_of_lt a.isLt)
  unfold tileSum tileK
  rw [ea]

/-! ## From the written-back blocks to the array -/

/-- The output's block index at a point: row block `t / 44`, column block `(t / 4) % 11`. -/
theorem index4 : ∀ t : Fin cfg0.N, win0_4.index t 0 = t.val / 44 ∧ win0_4.index t 1 = t.val / 4 % 11 :=
  (by decide +kernel : ∀ t : Fin grid0.N, win0_4.index t 0 = t.val / 44 ∧ win0_4.index t 1 = t.val / 4 % 11)

/-- The specification's result, as contents of the result array's buffer. -/
abbrev result : Buf (Elt Ideal) ((cfg0.win 4).arr.view.loc (c : Thread nD τ)) :=
  G (X m c) (QW m c) (QZ m c) (SC m c)

/-- What a point that writes back moves is its block of the specification's result. -/
theorem flushed_eq (t : Fin cfg0.N) (hf : (cfg0.win 4).flush t = true) :
    (dats (F := Ideal) m 0 c).flushed 4 t = ((cfg0.win 4).blk t).view.read (Elt Ideal) (result m c) := by
  have h3 : t.val % 4 = 3 := (flush0_4 t).mp hf
  have hN := N88
  funext y
  have hy0 : (y 0).val < 2048 :=
    lt_of_lt_of_eq (y 0).isLt ((Body.xsize4 t 0).trans (if_neg fun hh => absurd hh.1 (by decide)))
  have hy1 : (y 1).val < if (t.val / 4) % 11 = 10 then 768 else 1024 := by
    by_cases hj : (t.val / 4) % 11 = 10
    · rw [if_pos hj]; exact lt_of_lt_of_eq (y 1).isLt ((Body.xsize4 t 1).trans (if_pos ⟨rfl, hj⟩))
    · rw [if_neg hj]; exact lt_of_lt_of_eq (y 1).isLt ((Body.xsize4 t 1).trans (if_neg fun hh => hj hh.2))
  have ht := t.isLt
  have hq : 1024 * (t.val / 4 % 11) + (y 1).val < 11008 := by split_ifs at hy1 <;> omega
  let p : Fin 2048 := ⟨(y 0).val, hy0⟩
  let q : Fin 1024 := ⟨(y 1).val, by split_ifs at hy1 <;> omega⟩
  let r : Fin 4096 := ⟨2048 * (t.val / 44) + (y 0).val, by omega⟩
  let o : Fin 11008 := ⟨1024 * (t.val / 4 % 11) + (y 1).val, hq⟩
  have hin : (cfg0.win 4).xinj (grid0.coords t) y = ix2 p q :=
    funext fun a => by match a with | ⟨0, _⟩ => rfl | ⟨1, _⟩ => rfl
  have hemb : ((cfg0.win 4).blk t).view.emb y = ix2 r o :=
    funext fun a => Fin.ext (by
      match a with
      | ⟨0, _⟩ => show win0_4.index t 0 * 2048 + 1 * (y 0).val = 2048 * (t.val / 44) + (y 0).val; rw [(index4 t).1]; omega
      | ⟨1, _⟩ => show win0_4.index t 1 * 1024 + 1 * (y 1).val = 1024 * (t.val / 4 % 11) + (y 1).val; rw [(index4 t).2]; omega)
  show (dats (F := Ideal) m 0 c).after 4 t ((cfg0.win 4).xinj (grid0.coords t) y) = result m c (((cfg0.win 4).blk t).view.emb y)
  rw [Body.after4, hin, hemb]
  exact acc_last m c t h3 p q r o rfl rfl

/-- Every entry of the result array lies in the part inside the array of the block of a point that writes back. -/
theorem covered (i : ((cfg0.win 4).arr.view.loc (c : Thread nD τ)).2.ty.Idx) :
    ∃ t : Fin cfg0.N, (cfg0.win 4).flush t = true ∧ i ∈ ((cfg0.win 4).blk t).view.set := by
  have hN := N88
  have h0 : (i 0).val < 4096 := (i 0).isLt
  have h1 : (i 1).val < 11008 := (i 1).isLt
  refine ⟨⟨44 * ((i 0).val / 2048) + 4 * ((i 1).val / 1024) + 3, by omega⟩, (flush0_4 _).mpr (by show (44 * ((i 0).val / 2048) + 4 * ((i 1).val / 1024) + 3) % 4 = 3; omega), ?_⟩
  generalize ht : (⟨44 * ((i 0).val / 2048) + 4 * ((i 1).val / 1024) + 3, by omega⟩ : Fin cfg0.N) = t
  have htv : t.val = 44 * ((i 0).val / 2048) + 4 * ((i 1).val / 1024) + 3 := by rw [← ht]
  show i ∈ ((View.whole main_v7).slice (win0_4.rect t)).set
  rw [View.set_slice_whole, Rect.mem_set_unit]
  intro a
  match a with
  | ⟨0, _⟩ =>
    show win0_4.index t 0 * 2048 ≤ (i 0).val ∧ (i 0).val < win0_4.index t 0 * 2048 + win0_4.xsize (grid0.coords t) 0
    rw [(index4 t).1, Body.xsize4 t 0, if_neg (fun hh => absurd hh.1 (by decide))]
    show _ ∧ _ < _ + 2048
    omega
  | ⟨1, _⟩ =>
    show win0_4.index t 1 * 1024 ≤ (i 1).val ∧ (i 1).val < win0_4.index t 1 * 1024 + win0_4.xsize (grid0.coords t) 1
    rw [(index4 t).2, Body.xsize4 t 1]
    by_cases hj : (t.val / 4) % 11 = 10
    · rw [if_pos ⟨rfl, hj⟩]; omega
    · rw [if_neg (fun hh => hj hh.2)]; show _ ∧ _ < _ + 1024; omega

/-- The result array after the run is the specification's result. -/
theorem final : (dats (F := Ideal) m 0 c).arrAt 4 cfg0.N = result m c :=
  Dat.arrAt_eq_of_cover _ 4 (result m c) (flushed_eq m c) (covered c)

/-! ## The run -/

/-- Every weakly fair execution of the idealized kernel program terminates with the result array at the
    specification's result of the four argument arrays, and those unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = G (X m c) (QW m c) (QZ m c) (SC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (Body.run_main (F := Ideal) m ρ)

end Cert.KernelIdeal.KernelValue

end
-- ==== Proof.RefValue.lean ====
/-
  The reference program's result, read one index at a time at the ideal instance.

  The reference unpacks every packed word into its eight 4-bit fields (an arithmetic shift by 0, 4, …, 28 and a mask
  with 15), lays the fields out along the input-feature axis (feature k is field k % 8 of word k / 8), cuts that axis
  into groups of 128, subtracts the group's zero point, multiplies by the group's scale, and contracts the activations
  with the result over the input features.  Index by index that is the specification's G.
-/
import proofs.«405407_j53807350284787_4_alg».proof.Defs
import proofs.«405407_j53807350284787_4_alg».proof.Proof.Gen.ReferenceIdeal.Run
import proofs.«405407_j53807350284787_4_alg».proof.Proof.Gen.ReferenceIdeal.Read
import proofs.«405407_j53807350284787_4_alg».proof.Proof.Spec
import Idealize.ShloMosaic.Lib.ValueIdx
import Idealize.ShloMosaic.Lib.Pipeline.Value
import Idealize.ShloMosaic.PureOps.Ideal.Laws

noncomputable section

namespace Cert.RefValue

open Idealize.ShloMosaic Idealize.SL.Sem Cert.ReferenceIdeal Cert.ReferenceIdeal.Gen Cert.ReferenceIdeal.Read
open Idealize.ShloMosaic.ValueIdx

/-- The shift amount of field s is the word 0 + 4 · s. -/
theorem shift_apply (s : Fin 8) : val_main_v4 (F := Ideal) (ix1 s) = BitVec.ofNat 32 (4 * s.val) := by
  rw [val_main_v4_apply, val_main_v3_apply, val_main_c_0_apply, val_main_v2_apply, val_main_v1_apply,
    val_main_c_apply, val_main_v0_apply]
  show IntOp.addi 0#32 (IntOp.muli 4#32 (BitVec.ofNat 32 s.val)) = BitVec.ofNat 32 (4 * s.val)
  revert s; decide

/-- Field s of the word at row o, packed column p: the word shifted right arithmetically by 4 s, masked with 15. -/
theorem field_apply (qw : (⟨S11008x512, .i32⟩ : BufTy).Contents (Elt Ideal)) (o : Fin 11008) (p : Fin 512) (s : Fin 8) :
    val_main_v11 (F := Ideal) qw (ix3 o p s)
      = IntOp.andi (IntOp.shrsi .host (qw (ix2 o p)) (BitVec.ofNat 32 (4 * s.val))) 15#32 := by
  have e7 : idx_main_v5 (idx_main_v7 (ix3 o p s)) = ix2 o p :=
    funext fun a => Fin.ext (by match a with | ⟨0, _⟩ => rfl | ⟨1, _⟩ => rfl)
  have e8 : idx_main_v6 (idx_main_v8 (ix3 o p s)) = ix1 s :=
    funext fun a => Fin.ext (by match a with | ⟨0, _⟩ => rfl)
  rw [val_main_v11_apply, val_main_v9_apply, val_main_v7_apply, val_main_v5_apply, e7, val_main_v8_apply,
    val_main_v6_apply, e8, shift_apply, val_main_v10_apply, val_main_c_1_apply]

/-- Along the input-feature axis, feature k is field k % 8 of word k / 8. -/
theorem unpack_apply (qw : (⟨S11008x512, .i32⟩ : BufTy).Contents (Elt Ideal)) (o : Fin 11008) (k : Fin 4096) :
    val_main_v12 (F := Ideal) qw (ix2 o k)
      = val_main_v11 (F := Ideal) qw (ix3 o (⟨k.val / 8, by omega⟩ : Fin 512) (⟨k.val % 8, by omega⟩ : Fin 8)) := by
  have e : idx_main_v12 (ix2 o k) = ix3 o (⟨k.val / 8, by omega⟩ : Fin 512) (⟨k.val % 8, by omega⟩ : Fin 8) :=
    funext fun a => Fin.ext (by
      have ho := o.isLt
      have hk := k.isLt
      match a with
      | ⟨0, _⟩ => show (o.val * 4096 + k.val) / 4096 = o.val; omega
      | ⟨1, _⟩ => show (o.val * 4096 + k.val) / 8 % 512 = k.val / 8; omega
      | ⟨2, _⟩ => show (o.val * 4096 + k.val) % 8 = k.val % 8; omega)
  rw [val_main_v12_apply, e]

/-- Position l of group g is input feature 128 g + l. -/
theorem group_apply (qw : (⟨S11008x512, .i32⟩ : BufTy).Contents (Elt Ideal)) (o : Fin 11008) (g : Fin 32) (l : Fin 128)
    (k : Fin 4096) (hk : k.val = g.val * 128 + l.val) :
    val_main_v13 (F := Ideal) qw (ix3 o g l) = val_main_v12 (F := Ideal) qw (ix2 o k) := by
  have e : idx_main_v13 (ix3 o g l) = ix2 o k :=
    funext fun a => Fin.ext (by
      have ho := o.isLt
      have hg := g.isLt
      have hl := l.isLt
      match a with
      | ⟨0, _⟩ => show ((o.val * 32 + g.val) * 128 + l.val) / 4096 = o.val; omega
      | ⟨1, _⟩ => show ((o.val * 32 + g.val) * 128 + l.val) % 4096 = k.val; omega)
  rw [val_main_v13_apply, e]

/-- The zero point broadcast along a group is the one of the group and the output feature. -/
theorem zero_apply (qz : (⟨S32x11008, .i32⟩ : BufTy).Contents (Elt Ideal)) (o : Fin 11008) (g : Fin 32) (l : Fin 128) :
    val_main_v20 (F := Ideal) qz (ix3 o g l) = (((qz (ix2 g o)).toInt : ℝ) : EReal) := by
  have e : idx_main_v14 (idx_main_v15 (idx_main_v20 (ix3 o g l))) = ix2 g o :=
    funext fun a => Fin.ext (by match a with | ⟨0, _⟩ => rfl | ⟨1, _⟩ => rfl)
  rw [val_main_v20_apply, val_main_v16_apply, val_main_v15_apply, val_main_v14_apply, e]
  rfl

/-- The scale broadcast along a group is the one of the group and the output feature. -/
theorem scale_apply (sc : (⟨S32x11008, .f32⟩ : BufTy).Contents (Elt Ideal)) (o : Fin 11008) (g : Fin 32) (l : Fin 128) :
    val_main_v22 (F := Ideal) sc (ix3 o g l) = sc (ix2 g o) := by
  have e : idx_main_v17 (idx_main_v18 (idx_main_v22 (ix3 o g l))) = ix2 g o :=
    funext fun a => Fin.ext (by match a with | ⟨0, _⟩ => rfl | ⟨1, _⟩ => rfl)
  rw [val_main_v22_apply, val_main_v18_apply, val_main_v17_apply, e]

/-- The dequantized weight matrix of the reference, at output feature o and input feature k. -/
theorem weight_apply (qw : (⟨S11008x512, .i32⟩ : BufTy).Contents (Elt Ideal))
    (qz : (⟨S32x11008, .i32⟩ : BufTy).Contents (Elt Ideal)) (sc : (⟨S32x11008, .f32⟩ : BufTy).Contents (Elt Ideal))
    (o : Fin 11008) (k : Fin 4096) :
    val_main_v24 (F := Ideal) qw qz sc (ix2 o k) = Cert.Spec.weight qw qz sc o k := by
  have e : idx_main_v24 (ix2 o k) = ix3 o (⟨k.val / 128, by omega⟩ : Fin 32) (⟨k.val % 128, by omega⟩ : Fin 128) :=
    funext fun a => Fin.ext (by
      have ho := o.isLt
      have hk := k.isLt
      match a with
      | ⟨0, _⟩ => show (o.val * 4096 + k.val) / 4096 = o.val; omega
      | ⟨1, _⟩ => show (o.val * 4096 + k.val) / 128 % 32 = k.val / 128; omega
      | ⟨2, _⟩ => show (o.val * 4096 + k.val) % 128 = k.val % 128; omega)
  rw [val_main_v24_apply, e, val_main_v23_apply, val_main_v21_apply, val_main_v19_apply,
    group_apply qw o _ _ k (by show k.val = k.val / 128 * 128 + k.val % 128; omega), unpack_apply, field_apply,
    zero_apply, scale_apply]
  rfl

/-- The reference's result is the specification's. -/
theorem result_eq (x : (⟨S4096x4096, .f32⟩ : BufTy).Contents (Elt Ideal))
    (qw : (⟨S11008x512, .i32⟩ : BufTy).Contents (Elt Ideal)) (qz : (⟨S32x11008, .i32⟩ : BufTy).Contents (Elt Ideal))
    (sc : (⟨S32x11008, .f32⟩ : BufTy).Contents (Elt Ideal)) :
    val_main_v25 (F := Ideal) x qw qz sc = Cert.Spec.G x qw qz sc := by
  funext i
  obtain ⟨r, o, rfl⟩ : ∃ (r : Fin 4096) (o : Fin 11008), i = ix2 r o := ⟨i 0, i 1, eq_ix2 i⟩
  have el : ∀ k : Fin 4096, lidx_main_v25 (ix2 r o) k = ix2 r k := fun k =>
    funext fun a => Fin.ext (by match a with | ⟨0, _⟩ => rfl | ⟨1, _⟩ => rfl)
  have er : ∀ k : Fin 4096, ridx_main_v25 (ix2 r o) k = ix2 o k := fun k =>
    funext fun a => Fin.ext (by match a with | ⟨0, _⟩ => rfl | ⟨1, _⟩ => rfl)
  rw [val_main_v25_apply]
  show _ = ∑ k : Fin 4096, x (ix2 r k) * Cert.Spec.weight qw qz sc o k
  refine Finset.sum_congr rfl fun k _ => ?_
  rw [el, er, weight_apply]

/-- Every weakly fair execution of the reference terminates with its result the specification's G of the four
    arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v25)
        = Cert.Spec.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h c).1.trans (val_main_v25_eq _ _ _ _)).trans (result_eq _ _ _ _), (h c).2⟩)
    (Cert.ReferenceIdeal.Value.run (F := Ideal) m ρ)

end Cert.RefValue

end
-- ==== Proof.lean ====
/-
  The certificate of a fused 4-bit dequantize-and-multiply kernel against its plain reference.

  Both programs compute, over the extended reals, the product of the activations `x` [4096 x 4096] with the
  transposed dequantized weights: weight (o, k) = (field k % 8 of packed word (o, k / 8) − zero point (k / 128, o))
  · scale (k / 128, o), the specification's `G` (Proof/Spec.lean).

  The reference unpacks all the weights and takes one contraction over the 4096 input features
  (Proof/RefValue.lean).  The kernel pads the weight arrays to eleven column blocks of 1024 output features,
  permutes the activations' features within each tile of 1024 so that the eight 4-bit fields of a packed word lie
  128 apart, and accumulates in the output block's staging buffer over four K-tiles, the first of which zeroes it
  (Proof/BodyIdeal.lean, and word for word at the machine's words Proof/BodyBits.lean).  Its sum visits input
  feature 1024 a + 8 p + s at tile a, column 128 s + p: every feature once (Proof/SumTiles.lean), with the same
  product in the same order of factors, so the two results are one sum of extended reals rearranged — no appeal to
  finiteness is needed, addition there being commutative and associative (Proof/KernelValue.lean).  The last column
  block overhangs the result array by 256 columns; only its part inside the array is ever written back.

  No operation of the kernel is rewritten by the idealization, so its sanctioned-idealization conjunct is trivial.
-/
import proofs.«405407_j53807350284787_4_alg».proof.Defs
import proofs.«405407_j53807350284787_4_alg».proof.Proof.Gen.Kernel
import proofs.«405407_j53807350284787_4_alg».proof.Proof.Gen.KernelIdeal
import proofs.«405407_j53807350284787_4_alg».proof.Proof.Gen.ReferenceIdeal
import proofs.«405407_j53807350284787_4_alg».proof.Proof.Gen.Pre_finite_inputs
import proofs.«405407_j53807350284787_4_alg».proof.Proof.BodyBits
import proofs.«405407_j53807350284787_4_alg».proof.Proof.BodyIdeal
import proofs.«405407_j53807350284787_4_alg».proof.Proof.KernelValue
import proofs.«405407_j53807350284787_4_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Body.frame (F := Bits) m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Body.frame (F := Ideal) m ρ

/-- And the reference: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefValue.run m ρ)

/-- From memories that agree on the four arguments both programs end with the specification's result of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KernelValue.run m ρ, ?_⟩
  refine (θ_run Cert.ReferenceIdeal.defs _ _).mono (fun _ h c => ⟨(h c).1.trans ?_, (h c).2⟩) (Cert.RefValue.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
